-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg2 : IVec S50000 32) (main_v33 : IVec S_ 1) : IVec S_ 1 :=
  let main_c_12 : IVec S_ 32 := constantI S_ 32 0#32
  let main_v34 : IVec S50000 32 := broadcastInDim S50000 ![] bcast_S_S50000 main_c_12
  let main_v35 : IVec S50000 1 := cmpi .sge main_arg2 main_v34
  let main_c_13 : IVec S_ 1 := constantI S_ 1 1#1
  let main_v36 : IVec S_ 1 := (fun x v => Host.reduce IntOp.andi x v reducesTo_S50000_S_d0 h_S_) main_v35 main_c_13
  let main_v37 : IVec S_ 1 := andi main_v33 main_v36
  main_v37

def fn_part1 {F : FTy → Type} [FloatOps F] (main_arg2 : IVec S50000 32) (main_arg6 : FVec F S64 .f32) (main_arg7 : FVec F S64x10 .f32) (main_arg8 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x10 .f32 := Host.absf main_arg7
  let main_cst_8 : FVec F S_ .f32 := constant S_ .f32 0x7F800000#32
  let main_v25 : FVec F S64x10 .f32 := broadcastInDim S64x10 ![] bcast_S_S64x10 main_cst_8
  let main_v26 : IVec S64x10 1 := cmpf .olt main_v24 main_v25
  let main_c_9 : IVec S_ 1 := constantI S_ 1 1#1
  let main_v27 : IVec S_ 1 := (fun x v => Host.reduce IntOp.andi x v reducesTo_S64x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg2 main_v33

def fn {F : FTy → Type} [FloatOps F] (main_arg0 : FVec F S50000x64 .f32) (main_arg1 : IVec S2x800000 32) (main_arg2 : IVec S50000 32) (main_arg3 : FVec F S64x64 .f32) (main_arg4 : FVec F S64 .f32) (main_arg5 : FVec F S64x64 .f32) (main_arg6 : FVec F S64 .f32) (main_arg7 : FVec F S64x10 .f32) (main_arg8 : FVec F S10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg2 main_arg6 main_arg7 main_arg8 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x64 : Shape := ⟨2, ![5000, 64]⟩
abbrev S850000x64 : Shape := ⟨2, ![850000, 64]⟩
abbrev S1x64 : Shape := ⟨2, ![1, 64]⟩
abbrev S500x64 : Shape := ⟨2, ![500, 64]⟩
abbrev S50000x1 : Shape := ⟨2, ![50000, 1]⟩
abbrev S500 : Shape := ⟨1, ![500]⟩
abbrev S500x1 : Shape := ⟨2, ![500, 1]⟩
abbrev S1x10 : Shape := ⟨2, ![1, 10]⟩
abbrev S500x10 : Shape := ⟨2, ![500, 10]⟩

abbrev nBuf : Space → Nat
  | .hbm => 136
  | .vmem => 24
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x64, .f32⟩
  | 4 => ⟨S64, .f32⟩
  | 5 => ⟨S64x64, .f32⟩
  | 6 => ⟨S64, .f32⟩
  | 7 => ⟨S64x10, .f32⟩
  | 8 => ⟨S10, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S50000, .f32⟩
  | 18 => ⟨S_, .i32⟩
  | 19 => ⟨S850000, .i32⟩
  | 20 => ⟨S850000, .i1⟩
  | 21 => ⟨S_, .i32⟩
  | 22 => ⟨S850000, .i32⟩
  | 23 => ⟨S850000, .i32⟩
  | 24 => ⟨S850000, .i32⟩
  | 25 => ⟨S850000x1, .i32⟩
  | 26 => ⟨S_, .f32⟩
  | 27 => ⟨S850000, .f32⟩
  | 28 => ⟨S50000, .f32⟩
  | 29 => ⟨S_, .f32⟩
  | 30 => ⟨S50000, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S50000x64, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x64, .f32⟩
  | 62 => ⟨S850000x1, .f32⟩
  | 63 => ⟨S850000x64, .f32⟩
  | 64 => ⟨S850000x64, .f32⟩
  | 65 => ⟨S_, .f32⟩
  | 66 => ⟨S50000x64, .f32⟩
  | 67 => ⟨S_, .i32⟩
  | 68 => ⟨S850000, .i32⟩
  | 69 => ⟨S850000, .i1⟩
  | 70 => ⟨S_, .i32⟩
  | 71 => ⟨S850000, .i32⟩
  | 72 => ⟨S850000, .i32⟩
  | 73 => ⟨S850000, .i32⟩
  | 74 => ⟨S850000x1, .i32⟩
  | 75 => ⟨S50000x64, .f32⟩
  | 76 => ⟨S1x64, .f32⟩
  | 77 => ⟨S50000x64, .f32⟩
  | 78 => ⟨S50000x64, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000x64, .f32⟩
  | 88 => ⟨S850000x1, .f32⟩
  | 89 => ⟨S850000x64, .f32⟩
  | 90 => ⟨S850000x64, .f32⟩
  | 91 => ⟨S_, .f32⟩
  | 92 => ⟨S50000x64, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S50000x64, .f32⟩
  | 102 => ⟨S1x64, .f32⟩
  | 103 => ⟨S50000x64, .f32⟩
  | 104 => ⟨S_, .f32⟩
  | 105 => ⟨S500x64, .f32⟩
  | 106 => ⟨S_, .i32⟩
  | 107 => ⟨S50000, .i32⟩
  | 108 => ⟨S50000, .i1⟩
  | 109 => ⟨S_, .i32⟩
  | 110 => ⟨S50000, .i32⟩
  | 111 => ⟨S50000, .i32⟩
  | 112 => ⟨S50000, .i32⟩
  | 113 => ⟨S50000x1, .i32⟩
  | 114 => ⟨S500x64, .f32⟩
  | 115 => ⟨S_, .f32⟩
  | 116 => ⟨S500, .f32⟩
  | 117 => ⟨S_, .f32⟩
  | 118 => ⟨S50000, .f32⟩
  | 119 => ⟨S_, .i32⟩
  | 120 => ⟨S50000, .i32⟩
  | 121 => ⟨S50000, .i1⟩
  | 122 => ⟨S_, .i32⟩
  | 123 => ⟨S50000, .i32⟩
  | 124 => ⟨S50000, .i32⟩
  | 125 => ⟨S50000, .i32⟩
  | 126 => ⟨S50000x1, .i32⟩
  | 127 => ⟨S500, .f32⟩
  | _ => ⟨S50000x64, .f32⟩

abbrev hbmTy0_1 (i : Nat) : BufTy := match i % 128 with
  | 0 => ⟨S_, .f32⟩
  | 1 => ⟨S500, .f32⟩
  | 2 => ⟨S500, .f32⟩
  | 3 => ⟨S500x1, .f32⟩
  | 4 => ⟨S500x64, .f32⟩
  | 5 => ⟨S500x64, .f32⟩
  | 6 => ⟨S1x10, .f32⟩
  | 7 => ⟨S500x10, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S500x64, .f32⟩
  | .local _ .vmem, ⟨21, _⟩ => ⟨S64x10, .f32⟩
  | .local _ .vmem, ⟨22, _⟩ => ⟨S1x10, .f32⟩
  | .local _ .vmem, ⟨23, _⟩ => ⟨S500x10, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_c_10 : Ref sig .tc := ⟨.hbm, 67, rfl⟩
abbrev main_v46 : Ref sig .tc := ⟨.hbm, 68, rfl⟩
abbrev main_v47 : Ref sig .tc := ⟨.hbm, 69, rfl⟩
abbrev main_c_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_12 : Ref sig .tc := ⟨.hbm, 79, rfl⟩
abbrev main_v56 : Ref sig .tc := ⟨.hbm, 80, rfl⟩
abbrev main_v57 : Ref sig .tc := ⟨.hbm, 81, rfl⟩
abbrev main_c_13 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_c_15 : Ref sig .tc := ⟨.hbm, 93, rfl⟩
abbrev main_v67 : Ref sig .tc := ⟨.hbm, 94, rfl⟩
abbrev main_v68 : Ref sig .tc := ⟨.hbm, 95, rfl⟩
abbrev main_c_16 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_17 : Ref sig .tc := ⟨.hbm, 104, rfl⟩
abbrev main_v76 : Ref sig .tc := ⟨.hbm, 105, rfl⟩
abbrev main_c_18 : Ref sig .tc := ⟨.hbm, 106, rfl⟩
abbrev main_v77 : Ref sig .tc := ⟨.hbm, 107, rfl⟩
abbrev main_v78 : Ref sig .tc := ⟨.hbm, 108, rfl⟩
abbrev main_c_19 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_20 : Ref sig .tc := ⟨.hbm, 115, rfl⟩
abbrev main_v84 : Ref sig .tc := ⟨.hbm, 116, rfl⟩
abbrev main_cst_21 : Ref sig .tc := ⟨.hbm, 117, rfl⟩
abbrev main_v85 : Ref sig .tc := ⟨.hbm, 118, rfl⟩
abbrev main_c_22 : Ref sig .tc := ⟨.hbm, 119, rfl⟩
abbrev main_v86 : Ref sig .tc := ⟨.hbm, 120, rfl⟩
abbrev main_v87 : Ref sig .tc := ⟨.hbm, 121, rfl⟩
abbrev main_c_23 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_24 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S500x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S500x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S500x64 : S_.BroadcastsInDim S500x64 (![] : Fin 0 → Fin S500x64.rank)
  bcast_S50000_S50000x1_0 : S50000.BroadcastsInDim S50000x1 (![0] : Fin 1 → Fin S50000x1.rank)
  bcast_S_S500 : S_.BroadcastsInDim S500 (![] : Fin 0 → Fin S500.rank)
  bcast_S500_S500x1_0 : S500.BroadcastsInDim S500x1 (![0] : Fin 1 → Fin S500x1.rank)
  bcast_S500x1_S500x64_0_1 : S500x1.BroadcastsInDim S500x64 (![0, 1] : Fin 2 → Fin S500x64.rank)
  shapeCasts_S10_S1x10 : S10.ShapeCasts S1x10
  inb_S500x64_S500x64_0_0 : ∀ a, (![0, 0] : Fin 2 → Nat) a + S500x64.size a ≤ S500x64.size a
  h_S500x64 : 0 < S500x64.numel
  shapeCasts_S500x64_S500x64 : S500x64.ShapeCasts S500x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S500x10 : S1x10.Broadcasts S500x10
  reduces_S500x10_S500 : S500x10.Reduces [1] S500
  shapeCasts_S500_S500x1 : S500.ShapeCasts S500x1
  broadcasts_S500x1_S500x10 : S500x1.Broadcasts S500x10
  inb_S500x10_S500x10_0_0 : ∀ a, (![0, 0] : Fin 2 → Nat) a + S500x10.size a ≤ S500x10.size a
  h_S500x10 : 0 < S500x10.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S500x64_S50000x1_S50000x64_1_0_0_1_wf : ScatterDims.WF S500x64 S50000x1 S50000x64 [1] [0] [0] 1
  scatter_S500_S50000x1_S50000_n_0_0_1_wf : ScatterDims.WF S500 S50000x1 S50000 [] [0] [0] 1
  dot_S500x64_S64x10_S500x10_1_0_0_1_n_n_wf : DotDims.WF S500x64 S64x10 S500x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S500x64.size a ≤ S500x64.size a
  hwx4_0 : ∀ i : grid4.Coords, EltTy.bits .f32 = 32 ∨ (Rect.block (s := S500x64) S500x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x10.size a ≤ S64x10.size a
  hwx4_1 : ∀ i : grid4.Coords, EltTy.bits .f32 = 32 ∨ (Rect.block (s := S64x10) S64x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S500x10.size a ≤ S500x10.size a
  hwx4_3 : ∀ i : grid4.Coords, EltTy.bits .f32 = 32 ∨ (Rect.block (s := S500x10) S500x10.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S500x64_S50000x1_S50000x64_1_0_0_1 : ScatterDims S500x64 S50000x1 S50000x64 where
  updateWindowDims := [1]
  insertedWindowDims := [0]
  scatterDimsToOperandDims := [0]
  indexVectorDim := 1
  wf := scatter_S500x64_S50000x1_S50000x64_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def dot_S500x64_S64x10_S500x10_1_0_0_1_n_n : DotDims S500x64 S64x10 S500x10 where
  lhsContracting := [1]
  rhsContracting := [0]
  lhsNonContracting := [0]
  rhsNonContracting := [1]
  lhsBatch := []
  rhsBatch := []
  wf := dot_S500x64_S64x10_S500x10_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v54) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v73) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v97) S500x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v98) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v99) S500x10.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S500x64 : Shape := ⟨2, ![500, 64]⟩
abbrev S50000x1 : Shape := ⟨2, ![50000, 1]⟩
abbrev S500 : Shape := ⟨1, ![500]⟩
abbrev S500x1 : Shape := ⟨2, ![500, 1]⟩
abbrev S500x10 : Shape := ⟨2, ![500, 10]⟩
abbrev S1x10 : Shape := ⟨2, ![1, 10]⟩

abbrev nBuf : Space → Nat
  | .hbm => 183
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x64, .f32⟩
  | 4 => ⟨S64, .f32⟩
  | 5 => ⟨S64x64, .f32⟩
  | 6 => ⟨S64, .f32⟩
  | 7 => ⟨S64x10, .f32⟩
  | 8 => ⟨S10, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S50000x64, .f32⟩
  | 17 => ⟨S_, .f32⟩
  | 18 => ⟨S50000, .f32⟩
  | 19 => ⟨S_, .i32⟩
  | 20 => ⟨S850000, .i32⟩
  | 21 => ⟨S850000, .i1⟩
  | 22 => ⟨S_, .i32⟩
  | 23 => ⟨S850000, .i32⟩
  | 24 => ⟨S850000, .i32⟩
  | 25 => ⟨S850000, .i32⟩
  | 26 => ⟨S850000x1, .i32⟩
  | 27 => ⟨S_, .f32⟩
  | 28 => ⟨S850000, .f32⟩
  | 29 => ⟨S50000, .f32⟩
  | 30 => ⟨S_, .f32⟩
  | 31 => ⟨S50000, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S_, .f32⟩
  | 54 => ⟨S50000x64, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x64, .f32⟩
  | 64 => ⟨S850000x1, .f32⟩
  | 65 => ⟨S850000x64, .f32⟩
  | 66 => ⟨S850000x64, .f32⟩
  | 67 => ⟨S_, .i32⟩
  | 68 => ⟨S850000, .i32⟩
  | 69 => ⟨S850000, .i1⟩
  | 70 => ⟨S_, .i32⟩
  | 71 => ⟨S850000, .i32⟩
  | 72 => ⟨S850000, .i32⟩
  | 73 => ⟨S850000, .i32⟩
  | 74 => ⟨S850000x1, .i32⟩
  | 75 => ⟨S50000x64, .f32⟩
  | 76 => ⟨S1x64, .f32⟩
  | 77 => ⟨S50000x64, .f32⟩
  | 78 => ⟨S50000x64, .f32⟩
  | 79 => ⟨S_, .f32⟩
  | 80 => ⟨S50000x64, .f32⟩
  | 81 => ⟨S50000x64, .f32⟩
  | 82 => ⟨S50000x64, .f32⟩
  | 83 => ⟨S_, .f32⟩
  | 84 => ⟨S50000, .f32⟩
  | 85 => ⟨S_, .i32⟩
  | 86 => ⟨S850000, .i32⟩
  | 87 => ⟨S850000, .i1⟩
  | 88 => ⟨S_, .i32⟩
  | 89 => ⟨S850000, .i32⟩
  | 90 => ⟨S850000, .i32⟩
  | 91 => ⟨S850000, .i32⟩
  | 92 => ⟨S850000x1, .i32⟩
  | 93 => ⟨S_, .f32⟩
  | 94 => ⟨S850000, .f32⟩
  | 95 => ⟨S50000, .f32⟩
  | 96 => ⟨S_, .f32⟩
  | 97 => ⟨S50000, .f32⟩
  | 98 => ⟨S50000, .f32⟩
  | 99 => ⟨S50000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000, .f32⟩
  | 118 => ⟨S850000, .f32⟩
  | 119 => ⟨S_, .f32⟩
  | 120 => ⟨S50000x64, .f32⟩
  | 121 => ⟨S_, .i32⟩
  | 122 => ⟨S850000, .i32⟩
  | 123 => ⟨S850000, .i1⟩
  | 124 => ⟨S_, .i32⟩
  | 125 => ⟨S850000, .i32⟩
  | 126 => ⟨S850000, .i32⟩
  | 127 => ⟨S850000, .i32⟩
  | _ => ⟨S50000x64, .f32⟩

abbrev hbmTy0_1 (i : Nat) : BufTy := match i % 128 with
  | 0 => ⟨S850000x1, .i32⟩
  | 1 => ⟨S850000x64, .f32⟩
  | 2 => ⟨S850000x1, .f32⟩
  | 3 => ⟨S850000x64, .f32⟩
  | 4 => ⟨S850000x64, .f32⟩
  | 5 => ⟨S_, .i32⟩
  | 6 => ⟨S850000, .i32⟩
  | 7 => ⟨S850000, .i1⟩
  | 8 => ⟨S_, .i32⟩
  | 9 => ⟨S850000, .i32⟩
  | 10 => ⟨S850000, .i32⟩
  | 11 => ⟨S850000, .i32⟩
  | 12 => ⟨S850000x1, .i32⟩
  | 13 => ⟨S50000x64, .f32⟩
  | 14 => ⟨S1x64, .f32⟩
  | 15 => ⟨S50000x64, .f32⟩
  | 16 => ⟨S50000x64, .f32⟩
  | 17 => ⟨S_, .f32⟩
  | 18 => ⟨S50000x64, .f32⟩
  | 19 => ⟨S50000x64, .f32⟩
  | 20 => ⟨S_, .f32⟩
  | 21 => ⟨S500x64, .f32⟩
  | 22 => ⟨S50000x1, .i32⟩
  | 23 => ⟨S500x64, .f32⟩
  | 24 => ⟨S_, .f32⟩
  | 25 => ⟨S50000, .f32⟩
  | 26 => ⟨S_, .f32⟩
  | 27 => ⟨S500, .f32⟩
  | 28 => ⟨S50000x1, .i32⟩
  | 29 => ⟨S500, .f32⟩
  | 30 => ⟨S_, .f32⟩
  | 31 => ⟨S500, .f32⟩
  | 32 => ⟨S500, .f32⟩
  | 33 => ⟨S500x1, .f32⟩
  | 34 => ⟨S500x64, .f32⟩
  | 35 => ⟨S500x64, .f32⟩
  | 36 => ⟨S500x10, .f32⟩
  | 37 => ⟨S1x10, .f32⟩
  | 38 => ⟨S500x10, .f32⟩
  | 39 => ⟨S500x10, .f32⟩
  | 40 => ⟨S_, .f32⟩
  | 41 => ⟨S500, .f32⟩
  | 42 => ⟨S_, .f32⟩
  | 43 => ⟨S500, .f32⟩
  | 44 => ⟨S500, .f32⟩
  | 45 => ⟨S500x1, .f32⟩
  | 46 => ⟨S500x10, .f32⟩
  | 47 => ⟨S500x10, .f32⟩
  | 48 => ⟨S500x10, .f32⟩
  | 49 => ⟨S_, .f32⟩
  | 50 => ⟨S500, .f32⟩
  | 51 => ⟨S500x1, .f32⟩
  | 52 => ⟨S500x1, .f32⟩
  | 53 => ⟨S500x10, .f32⟩
  | 54 => ⟨S500x10, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_10 : Ref sig .tc := ⟨.hbm, 67, rfl⟩
abbrev main_v46 : Ref sig .tc := ⟨.hbm, 68, rfl⟩
abbrev main_v47 : Ref sig .tc := ⟨.hbm, 69, rfl⟩
abbrev main_c_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call0_cst : Ref sig .tc := ⟨.hbm, 79, rfl⟩
abbrev main_call0_v0 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_c_13 : Ref sig .tc := ⟨.hbm, 85, rfl⟩
abbrev main_v59 : Ref sig .tc := ⟨.hbm, 86, rfl⟩
abbrev main_v60 : Ref sig .tc := ⟨.hbm, 87, rfl⟩
abbrev main_c_14 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_v66 : Ref sig .tc := ⟨.hbm, 95, rfl⟩
abbrev main_cst_16 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_17 : Ref sig .tc := ⟨.hbm, 100, rfl⟩
abbrev main_v70 : Ref sig .tc := ⟨.hbm, 101, rfl⟩
abbrev main_v71 : Ref sig .tc := ⟨.hbm, 102, rfl⟩
abbrev main_c_18 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_19 : Ref sig .tc := ⟨.hbm, 109, rfl⟩
abbrev main_v77 : Ref sig .tc := ⟨.hbm, 110, rfl⟩
abbrev main_v78 : Ref sig .tc := ⟨.hbm, 111, rfl⟩
abbrev main_c_20 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_21 : Ref sig .tc := ⟨.hbm, 119, rfl⟩
abbrev main_v85 : Ref sig .tc := ⟨.hbm, 120, rfl⟩
abbrev main_c_22 : Ref sig .tc := ⟨.hbm, 121, rfl⟩
abbrev main_v86 : Ref sig .tc := ⟨.hbm, 122, rfl⟩
abbrev main_v87 : Ref sig .tc := ⟨.hbm, 123, rfl⟩
abbrev main_c_23 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_c_24 : Ref sig .tc := ⟨.hbm, 133, rfl⟩
abbrev main_v96 : Ref sig .tc := ⟨.hbm, 134, rfl⟩
abbrev main_v97 : Ref sig .tc := ⟨.hbm, 135, rfl⟩
abbrev main_c_25 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_call1_cst : Ref sig .tc := ⟨.hbm, 145, rfl⟩
abbrev main_call1_v0 : Ref sig .tc := ⟨.hbm, 146, rfl⟩
abbrev main_v106 : Ref sig .tc := ⟨.hbm, 147, rfl⟩
abbrev main_cst_26 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_27 : Ref sig .tc := ⟨.hbm, 152, rfl⟩
abbrev main_v110 : Ref sig .tc := ⟨.hbm, 153, rfl⟩
abbrev main_cst_28 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_29 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_call2_cst : Ref sig .tc := ⟨.hbm, 168, rfl⟩
abbrev main_call2_v0 : Ref sig .tc := ⟨.hbm, 169, rfl⟩
abbrev main_call2_cst_0 : Ref sig .tc := ⟨.hbm, 170, rfl⟩
abbrev main_call2_v1 : Ref sig .tc := ⟨.hbm, 171, rfl⟩
abbrev main_call2_v2 : Ref sig .tc := ⟨.hbm, 172, rfl⟩
abbrev main_call2_v3 : Ref sig .tc := ⟨.hbm, 173, rfl⟩
abbrev main_call2_v4 : Ref sig .tc := ⟨.hbm, 174, rfl⟩
abbrev main_call2_v5 : Ref sig .tc := ⟨.hbm, 175, rfl⟩
abbrev main_call2_v6 : Ref sig .tc := ⟨.hbm, 176, rfl⟩
abbrev main_call2_cst_1 : Ref sig .tc := ⟨.hbm, 177, rfl⟩
abbrev main_call2_v7 : Ref sig .tc := ⟨.hbm, 178, rfl⟩
abbrev main_call2_v8 : Ref sig .tc := ⟨.hbm, 179, rfl⟩
abbrev main_call2_v9 : Ref sig .tc := ⟨.hbm, 180, rfl⟩
abbrev main_call2_v10 : Ref sig .tc := ⟨.hbm, 181, rfl⟩
abbrev main_v123 : Ref sig .tc := ⟨.hbm, 182, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S_S50000x64 : S_.BroadcastsInDim S50000x64 (![] : Fin 0 → Fin S50000x64.rank)
  bcast_S850000x1_S850000x64_0_1 : S850000x1.BroadcastsInDim S850000x64 (![0, 1] : Fin 2 → Fin S850000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S500x64 : S_.BroadcastsInDim S500x64 (![] : Fin 0 → Fin S500x64.rank)
  bcast_S50000_S50000x1_0 : S50000.BroadcastsInDim S50000x1 (![0] : Fin 1 → Fin S50000x1.rank)
  bcast_S_S500 : S_.BroadcastsInDim S500 (![] : Fin 0 → Fin S500.rank)
  bcast_S500_S500x1_0 : S500.BroadcastsInDim S500x1 (![0] : Fin 1 → Fin S500x1.rank)
  bcast_S500x1_S500x64_0_1 : S500x1.BroadcastsInDim S500x64 (![0, 1] : Fin 2 → Fin S500x64.rank)
  bcast_S10_S1x10_1 : S10.BroadcastsInDim S1x10 (![1] : Fin 1 → Fin S1x10.rank)
  bcast_S1x10_S500x10_0_1 : S1x10.BroadcastsInDim S500x10 (![0, 1] : Fin 2 → Fin S500x10.rank)
  reducesTo_S500x10_S500_d1 : S500x10.ReducesTo [1] S500
  h_S_ : 0 < S_.numel
  bcast_S500x1_S500x10_0_1 : S500x1.BroadcastsInDim S500x10 (![0, 1] : Fin 2 → Fin S500x10.rank)
  dot_S50000x64_S64x64_S50000x64_1_0_0_1_n_n_wf : DotDims.WF S50000x64 S64x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S500x64_S50000x1_S50000x64_1_0_0_1_wf : ScatterDims.WF S500x64 S50000x1 S50000x64 [1] [0] [0] 1
  scatter_S500_S50000x1_S50000_n_0_0_1_wf : ScatterDims.WF S500 S50000x1 S50000 [] [0] [0] 1
  dot_S500x64_S64x10_S500x10_1_0_0_1_n_n_wf : DotDims.WF S500x64 S64x10 S500x10 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S500x64_S50000x1_S50000x64_1_0_0_1 : ScatterDims S500x64 S50000x1 S50000x64 where
  updateWindowDims := [1]
  insertedWindowDims := [0]
  scatterDimsToOperandDims := [0]
  indexVectorDim := 1
  wf := scatter_S500x64_S50000x1_S50000x64_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def dot_S500x64_S64x10_S500x10_1_0_0_1_n_n : DotDims S500x64 S64x10 S500x10 where
  lhsContracting := [1]
  rhsContracting := [0]
  lhsNonContracting := [0]
  rhsNonContracting := [1]
  lhsBatch := []
  rhsBatch := []
  wf := dot_S500x64_S64x10_S500x10_1_0_0_1_n_n_wf

class Facts : Prop extends Facts₀ where

variable [Facts]
-- ==== Proof.HostTactics.lean ====
/-
  Two small tactics for reading what a buffer holds after a stretch of host operations (the fold `StableHlo.after`
  over a literal list of operations). `read_stretch` opens the fold: each operation's result buffer holds the
  operation's function of its operands' contents, every other buffer what it held before; operands inside the list of
  a concatenation are reached by rewriting, which the one-pass simplification does not enter. What is left is a term
  over the contents the stretch started from.
-/
import Idealize.ShloMosaic.Lib.StableHlo.Run

open Idealize.ShloMosaic.StableHlo in
/-- Rewrite each operation's result at its own buffer to the operation's value, and at any other buffer to what was
    there before, until nothing applies. -/
macro "results_rw" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-- Open the fold over a stretch whose list has been unfolded: one simplification pass, then the rewriting loop for
    what sits inside a concatenation's operand list. -/
macro "read_stretch" : tactic =>
  `(tactic| (after_results_simp; try results_rw))
-- ==== Proof.Stretch0.lean ====
/-
  The first stretch of host operations, before any region: from the edge list it builds the source and destination
  index vectors with the self-loops appended, the in-degree of every node (a scatter-add of ones at the wrapped
  destination indices), its inverse square root clamped below at 1, and the per-edge weight, the product of the two
  end points' values. The idealized reference builds the same three arrays with the same operations, so each buffer
  holds the reference's stage function of the edge list; no operation of the stretch touches an argument array.
-/
import proofs.«114467_j33964601377212_1_alg».proof.Proof.Gen.KernelIdeal.Frame
import proofs.«114467_j33964601377212_1_alg».proof.Proof.Gen.ReferenceIdeal.Read
import proofs.«114467_j33964601377212_1_alg».proof.Proof.HostTactics
import Idealize.ShloMosaic.PureOps.Ideal

set_option maxRecDepth 16384

noncomputable section

namespace Cert.KernelIdeal.Levels

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The argument arrays of device `c` as launched. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)

/-! ## The three arrays the stretch leaves for later stretches -/

set_option maxHeartbeats 8000000 in
/-- The source indices (edge sources, then every node once) are the reference's. -/
theorem W1_v3 (c : Dev nD) : W1 m ρ c (Proc.devRef .tc main_v3) = Cert.ReferenceIdeal.Read.val_main_v3 (F := Ideal) (a1 m c) := by
  show StableHlo.after hostOps0 (W0 m ρ c) (Proc.devRef .tc main_v3) = _
  dsimp only [hostOps0]
  read_stretch
  rfl

set_option maxHeartbeats 8000000 in
/-- The destination indices (edge destinations, then every node once) are the reference's. -/
theorem W1_v6 (c : Dev nD) : W1 m ρ c (Proc.devRef .tc main_v6) = Cert.ReferenceIdeal.Read.val_main_v6 (F := Ideal) (a1 m c) := by
  show StableHlo.after hostOps0 (W0 m ρ c) (Proc.devRef .tc main_v6) = _
  dsimp only [hostOps0]
  read_stretch
  rfl

set_option maxHeartbeats 8000000 in
/-- The per-edge weight, the product of the clamped inverse square roots of the two end points' degrees, is the reference's. -/
theorem W1_v33 (c : Dev nD) : W1 m ρ c (Proc.devRef .tc main_v33) = Cert.ReferenceIdeal.Read.val_main_v34 (F := Ideal) (a1 m c) := by
  show StableHlo.after hostOps0 (W0 m ρ c) (Proc.devRef .tc main_v33) = _
  dsimp only [hostOps0]
  read_stretch
  rfl

/-! ## The argument arrays pass through -/

set_option maxHeartbeats 8000000 in
theorem W1_arg0 (c : Dev nD) : W1 m ρ c (Proc.devRef .tc main_arg0) = a0 m c := by
  show StableHlo.after hostOps0 (W0 m ρ c) (Proc.devRef .tc main_arg0) = _
  dsimp only [hostOps0]; read_stretch
set_option maxHeartbeats 8000000 in
theorem W1_arg2 (c : Dev nD) : W1 m ρ c (Proc.devRef .tc main_arg2) = a2 m c := by
  show StableHlo.after hostOps0 (W0 m ρ c) (Proc.devRef .tc main_arg2) = _
  dsimp only [hostOps0]; read_stretch
set_option maxHeartbeats 8000000 in
theorem W1_arg3 (c : Dev nD) : W1 m ρ c (Proc.devRef .tc main_arg3) = a3 m c := by
  show StableHlo.after hostOps0 (W0 m ρ c) (Proc.devRef .tc main_arg3) = _
  dsimp only [hostOps0]; read_stretch
set_option maxHeartbeats 8000000 in
theorem W1_arg4 (c : Dev nD) : W1 m ρ c (Proc.devRef .tc main_arg4) = a4 m c := by
  show StableHlo.after hostOps0 (W0 m ρ c) (Proc.devRef .tc main_arg4) = _
  dsimp only [hostOps0]; read_stretch
set_option maxHeartbeats 8000000 in
theorem W1_arg5 (c : Dev nD) : W1 m ρ c (Proc.devRef .tc main_arg5) = a5 m c := by
  show StableHlo.after hostOps0 (W0 m ρ c) (Proc.devRef .tc main_arg5) = _
  dsimp only [hostOps0]; read_stretch
set_option maxHeartbeats 8000000 in
theorem W1_arg6 (c : Dev nD) : W1 m ρ c (Proc.devRef .tc main_arg6) = a6 m c := by
  show StableHlo.after hostOps0 (W0 m ρ c) (Proc.devRef .tc main_arg6) = _
  dsimp only [hostOps0]; read_stretch
set_option maxHeartbeats 8000000 in
theorem W1_arg7 (c : Dev nD) : W1 m ρ c (Proc.devRef .tc main_arg7) = a7 m c := by
  show StableHlo.after hostOps0 (W0 m ρ c) (Proc.devRef .tc main_arg7) = _
  dsimp only [hostOps0]; read_stretch
set_option maxHeartbeats 8000000 in
theorem W1_arg8 (c : Dev nD) : W1 m ρ c (Proc.devRef .tc main_arg8) = a8 m c := by
  show StableHlo.after hostOps0 (W0 m ρ c) (Proc.devRef .tc main_arg8) = _
  dsimp only [hostOps0]; read_stretch

end Cert.KernelIdeal.Levels

end
-- ==== Proof.Spec.lean ====
/-
  The two whole-array functions the feature-transform and bias regions compute, over literal shapes, on the
  extended reals: the product of a 50000 × 64 array with a 64 × 64 one, and `max (a + b, 0)` with the bias `b` a
  1 × 64 row added to every row of `a`. Both programs are proved to compute these; nothing here names a program.
-/
import Idealize.ShloMosaic.PureOps.Ideal
import Idealize.ShloMosaic.Lib.ValueIdx

noncomputable section

namespace Cert.Spec

open Idealize.ShloMosaic Idealize.ShloMosaic.ValueIdx

/-- Entry (r, q) of the product: the sum over k of x (r, k) · w (k, q). -/
def prod (x : Vec Ideal ⟨2, ![50000, 64]⟩ .f32) (w : Vec Ideal ⟨2, ![64, 64]⟩ .f32) : Vec Ideal ⟨2, ![50000, 64]⟩ .f32 :=
  fun i => ∑ k : Fin 64, x (ix2 (i 0) k) * w (ix2 k (i 1))

/-- Entry (r, q) of the biased, rectified array: max (a (r, q) + b (0, q), 0). -/
def biasRelu (a : Vec Ideal ⟨2, ![50000, 64]⟩ .f32) (b : Vec Ideal ⟨2, ![1, 64]⟩ .f32) : Vec Ideal ⟨2, ![50000, 64]⟩ .f32 :=
  fun i => max (a i + b (ix2 (0 : Fin 1) (i 1))) (Ideal.ofBits .f32 0x00000000#32)

/-- A vector of length n laid out as the one row of a 1 × n array. -/
def asRow {n : ℕ} (b : Vec Ideal ⟨1, ![n]⟩ .f32) : Vec Ideal ⟨2, ![1, n]⟩ .f32 := fun i => b (ix1 (i 1))

end Cert.Spec

end
-- ==== Proof.RowLayout.lean ====
/-
  A vector of length n cast to the one row of a 1 × n array holds, at (0, j), the vector's entry j: the cast only adds
  a leading axis of extent one.
-/
import proofs.«114467_j33964601377212_1_alg».proof.Proof.Spec
import Idealize.ShloMosaic.Lib.Pipeline.Value

noncomputable section

namespace Cert.Spec

open Idealize.ShloMosaic Idealize.ShloMosaic.ValueIdx

/-- The shape cast [n] → [1, n] is `asRow`. -/
theorem shapeCast_row {n : ℕ} (x : Vec Ideal ⟨1, ![n]⟩ .f32) (h : (⟨1, ![n]⟩ : Shape).ShapeCasts ⟨2, ![1, n]⟩) :
    shapeCast ⟨2, ![1, n]⟩ x h = asRow x :=
  funext fun j => (shapeCast_addUnit_apply ![n] x h j).trans
    (congrArg x (funext fun a => by match a with | ⟨0, _⟩ => rfl))

end Cert.Spec

end
-- ==== Proof.Stretch1.lean ====
/-
  The stretch between the first feature transform and the first bias region: the transformed features are gathered
  at the (wrapped) source indices, scaled by the per-edge weight broadcast along the feature axis, and scatter-added at
  the (wrapped) destination indices into a zero array — the first layer's aggregation — and the bias vector is cast
  to a row. With the transform's output at the reference's product, the aggregate is the reference's aggregate: the
  two programs apply the same operations to the same index vectors and weights.
-/
import proofs.«114467_j33964601377212_1_alg».proof.Proof.Stretch0
import proofs.«114467_j33964601377212_1_alg».proof.Proof.RowLayout

set_option maxRecDepth 16384

noncomputable section

namespace Cert.KernelIdeal.Levels

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the first region leaves untouched -/

theorem W2_v3 (c : Dev nD) : W2 m ρ c (Proc.devRef .tc main_v3) = Cert.ReferenceIdeal.Read.val_main_v3 (F := Ideal) (a1 m c) :=
  (W2_of_ne m ρ c main_v3 (by decide)).trans (W1_v3 m ρ c)
theorem W2_v6 (c : Dev nD) : W2 m ρ c (Proc.devRef .tc main_v6) = Cert.ReferenceIdeal.Read.val_main_v6 (F := Ideal) (a1 m c) :=
  (W2_of_ne m ρ c main_v6 (by decide)).trans (W1_v6 m ρ c)
theorem W2_v33 (c : Dev nD) : W2 m ρ c (Proc.devRef .tc main_v33) = Cert.ReferenceIdeal.Read.val_main_v34 (F := Ideal) (a1 m c) :=
  (W2_of_ne m ρ c main_v33 (by decide)).trans (W1_v33 m ρ c)
theorem W2_arg2 (c : Dev nD) : W2 m ρ c (Proc.devRef .tc main_arg2) = a2 m c := (W2_of_ne m ρ c main_arg2 (by decide)).trans (W1_arg2 m ρ c)
theorem W2_arg4 (c : Dev nD) : W2 m ρ c (Proc.devRef .tc main_arg4) = a4 m c := (W2_of_ne m ρ c main_arg4 (by decide)).trans (W1_arg4 m ρ c)
theorem W2_arg5 (c : Dev nD) : W2 m ρ c (Proc.devRef .tc main_arg5) = a5 m c := (W2_of_ne m ρ c main_arg5 (by decide)).trans (W1_arg5 m ρ c)
theorem W2_arg6 (c : Dev nD) : W2 m ρ c (Proc.devRef .tc main_arg6) = a6 m c := (W2_of_ne m ρ c main_arg6 (by decide)).trans (W1_arg6 m ρ c)
theorem W2_arg7 (c : Dev nD) : W2 m ρ c (Proc.devRef .tc main_arg7) = a7 m c := (W2_of_ne m ρ c main_arg7 (by decide)).trans (W1_arg7 m ρ c)
theorem W2_arg8 (c : Dev nD) : W2 m ρ c (Proc.devRef .tc main_arg8) = a8 m c := (W2_of_ne m ρ c main_arg8 (by decide)).trans (W1_arg8 m ρ c)

/-! ## The stretch's two results -/

set_option maxHeartbeats 8000000 in
/-- The first layer's aggregate is the reference's, given the transform's output at the reference's product. -/
theorem W3_v52 (c : Dev nD)
    (h34 : W2 m ρ c (Proc.devRef .tc main_v34) = Cert.ReferenceIdeal.Read.val_main_v7 (F := Ideal) (a0 m c) (a3 m c)) :
    W3 m ρ c (Proc.devRef .tc main_v52)
      = Cert.ReferenceIdeal.Read.val_main_v52 (F := Ideal) (a0 m c) (a1 m c) (a3 m c) := by
  show StableHlo.after hostOps1 (W2 m ρ c) (Proc.devRef .tc main_v52) = _
  dsimp only [hostOps1]
  read_stretch
  rw [h34, W2_v3 m ρ c, W2_v6 m ρ c, W2_v33 m ρ c]
  rfl

set_option maxHeartbeats 8000000 in
/-- The first bias, cast to a row. -/
theorem W3_v53 (c : Dev nD) : W3 m ρ c (Proc.devRef .tc main_v53) = Cert.Spec.asRow (a4 m c) := by
  show StableHlo.after hostOps1 (W2 m ρ c) (Proc.devRef .tc main_v53) = _
  dsimp only [hostOps1]
  read_stretch
  rw [W2_arg4 m ρ c]
  exact Cert.Spec.shapeCast_row (a4 m c) _

/-! ## What the stretch leaves untouched -/

set_option maxHeartbeats 8000000 in
theorem W3_v3 (c : Dev nD) : W3 m ρ c (Proc.devRef .tc main_v3) = Cert.ReferenceIdeal.Read.val_main_v3 (F := Ideal) (a1 m c) := by
  show StableHlo.after hostOps1 (W2 m ρ c) (Proc.devRef .tc main_v3) = _
  dsimp only [hostOps1]; read_stretch; exact W2_v3 m ρ c
set_option maxHeartbeats 8000000 in
theorem W3_v6 (c : Dev nD) : W3 m ρ c (Proc.devRef .tc main_v6) = Cert.ReferenceIdeal.Read.val_main_v6 (F := Ideal) (a1 m c) := by
  show StableHlo.after hostOps1 (W2 m ρ c) (Proc.devRef .tc main_v6) = _
  dsimp only [hostOps1]; read_stretch; exact W2_v6 m ρ c
set_option maxHeartbeats 8000000 in
theorem W3_v33 (c : Dev nD) : W3 m ρ c (Proc.devRef .tc main_v33) = Cert.ReferenceIdeal.Read.val_main_v34 (F := Ideal) (a1 m c) := by
  show StableHlo.after hostOps1 (W2 m ρ c) (Proc.devRef .tc main_v33) = _
  dsimp only [hostOps1]; read_stretch; exact W2_v33 m ρ c
set_option maxHeartbeats 8000000 in
theorem W3_arg2 (c : Dev nD) : W3 m ρ c (Proc.devRef .tc main_arg2) = a2 m c := by
  show StableHlo.after hostOps1 (W2 m ρ c) (Proc.devRef .tc main_arg2) = _
  dsimp only [hostOps1]; read_stretch; exact W2_arg2 m ρ c
set_option maxHeartbeats 8000000 in
theorem W3_arg5 (c : Dev nD) : W3 m ρ c (Proc.devRef .tc main_arg5) = a5 m c := by
  show StableHlo.after hostOps1 (W2 m ρ c) (Proc.devRef .tc main_arg5) = _
  dsimp only [hostOps1]; read_stretch; exact W2_arg5 m ρ c
set_option maxHeartbeats 8000000 in
theorem W3_arg6 (c : Dev nD) : W3 m ρ c (Proc.devRef .tc main_arg6) = a6 m c := by
  show StableHlo.after hostOps1 (W2 m ρ c) (Proc.devRef .tc main_arg6) = _
  dsimp only [hostOps1]; read_stretch; exact W2_arg6 m ρ c
set_option maxHeartbeats 8000000 in
theorem W3_arg7 (c : Dev nD) : W3 m ρ c (Proc.devRef .tc main_arg7) = a7 m c := by
  show StableHlo.after hostOps1 (W2 m ρ c) (Proc.devRef .tc main_arg7) = _
  dsimp only [hostOps1]; read_stretch; exact W2_arg7 m ρ c
set_option maxHeartbeats 8000000 in
theorem W3_arg8 (c : Dev nD) : W3 m ρ c (Proc.devRef .tc main_arg8) = a8 m c := by
  show StableHlo.after hostOps1 (W2 m ρ c) (Proc.devRef .tc main_arg8) = _
  dsimp only [hostOps1]; read_stretch; exact W2_arg8 m ρ c

end Cert.KernelIdeal.Levels

end
-- ==== Proof.Stretch3.lean ====
/-
  The stretch between the second feature transform and the second bias region: the second layer's aggregation, with
  the same index vectors and per-edge weights as the first (the kernel keeps them from the first stretch; the
  reference computes them again, by the same operations of the same edge list), and the second bias cast to a row.
  Before it, the first bias region and the second transform leave every buffer but their own arrays as it was.
-/
import proofs.«114467_j33964601377212_1_alg».proof.Proof.Stretch1

set_option maxRecDepth 16384

noncomputable section

namespace Cert.KernelIdeal.Levels

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the first bias region (level 4) and the second transform (level 5) leave untouched -/

theorem W4_v3 (c : Dev nD) : W4 m ρ c (Proc.devRef .tc main_v3) = Cert.ReferenceIdeal.Read.val_main_v3 (F := Ideal) (a1 m c) :=
  (W4_of_ne m ρ c main_v3 (by decide)).trans (W3_v3 m ρ c)
theorem W4_v6 (c : Dev nD) : W4 m ρ c (Proc.devRef .tc main_v6) = Cert.ReferenceIdeal.Read.val_main_v6 (F := Ideal) (a1 m c) :=
  (W4_of_ne m ρ c main_v6 (by decide)).trans (W3_v6 m ρ c)
theorem W4_v33 (c : Dev nD) : W4 m ρ c (Proc.devRef .tc main_v33) = Cert.ReferenceIdeal.Read.val_main_v34 (F := Ideal) (a1 m c) :=
  (W4_of_ne m ρ c main_v33 (by decide)).trans (W3_v33 m ρ c)
theorem W4_arg2 (c : Dev nD) : W4 m ρ c (Proc.devRef .tc main_arg2) = a2 m c :=
  (W4_of_ne m ρ c main_arg2 (by decide)).trans (W3_arg2 m ρ c)
theorem W4_arg5 (c : Dev nD) : W4 m ρ c (Proc.devRef .tc main_arg5) = a5 m c :=
  (W4_of_ne m ρ c main_arg5 (by decide)).trans (W3_arg5 m ρ c)
theorem W4_arg6 (c : Dev nD) : W4 m ρ c (Proc.devRef .tc main_arg6) = a6 m c :=
  (W4_of_ne m ρ c main_arg6 (by decide)).trans (W3_arg6 m ρ c)
theorem W4_arg7 (c : Dev nD) : W4 m ρ c (Proc.devRef .tc main_arg7) = a7 m c :=
  (W4_of_ne m ρ c main_arg7 (by decide)).trans (W3_arg7 m ρ c)
theorem W4_arg8 (c : Dev nD) : W4 m ρ c (Proc.devRef .tc main_arg8) = a8 m c :=
  (W4_of_ne m ρ c main_arg8 (by decide)).trans (W3_arg8 m ρ c)
theorem W5_v3 (c : Dev nD) : W5 m ρ c (Proc.devRef .tc main_v3) = Cert.ReferenceIdeal.Read.val_main_v3 (F := Ideal) (a1 m c) :=
  (W5_of_ne m ρ c main_v3 (by decide)).trans (W4_v3 m ρ c)
theorem W5_v6 (c : Dev nD) : W5 m ρ c (Proc.devRef .tc main_v6) = Cert.ReferenceIdeal.Read.val_main_v6 (F := Ideal) (a1 m c) :=
  (W5_of_ne m ρ c main_v6 (by decide)).trans (W4_v6 m ρ c)
theorem W5_v33 (c : Dev nD) : W5 m ρ c (Proc.devRef .tc main_v33) = Cert.ReferenceIdeal.Read.val_main_v34 (F := Ideal) (a1 m c) :=
  (W5_of_ne m ρ c main_v33 (by decide)).trans (W4_v33 m ρ c)
theorem W5_arg2 (c : Dev nD) : W5 m ρ c (Proc.devRef .tc main_arg2) = a2 m c :=
  (W5_of_ne m ρ c main_arg2 (by decide)).trans (W4_arg2 m ρ c)
theorem W5_arg6 (c : Dev nD) : W5 m ρ c (Proc.devRef .tc main_arg6) = a6 m c :=
  (W5_of_ne m ρ c main_arg6 (by decide)).trans (W4_arg6 m ρ c)
theorem W5_arg7 (c : Dev nD) : W5 m ρ c (Proc.devRef .tc main_arg7) = a7 m c :=
  (W5_of_ne m ρ c main_arg7 (by decide)).trans (W4_arg7 m ρ c)
theorem W5_arg8 (c : Dev nD) : W5 m ρ c (Proc.devRef .tc main_arg8) = a8 m c :=
  (W5_of_ne m ρ c main_arg8 (by decide)).trans (W4_arg8 m ρ c)

/-! ## The stretch's two results -/

set_option maxHeartbeats 8000000 in
/-- The second layer's aggregate is the reference's, given the second transform's output at the reference's product. -/
theorem W6_v73 (c : Dev nD)
    (h55 : W5 m ρ c (Proc.devRef .tc main_v55)
      = Cert.ReferenceIdeal.Read.val_main_v57 (F := Ideal) (a0 m c) (a1 m c) (a3 m c) (a4 m c) (a5 m c)) :
    W6 m ρ c (Proc.devRef .tc main_v73)
      = Cert.ReferenceIdeal.Read.val_main_v102 (F := Ideal) (a0 m c) (a1 m c) (a3 m c) (a4 m c) (a5 m c) := by
  show StableHlo.after hostOps3 (W5 m ρ c) (Proc.devRef .tc main_v73) = _
  dsimp only [hostOps3]
  read_stretch
  rw [h55, W5_v3 m ρ c, W5_v6 m ρ c, W5_v33 m ρ c]
  rfl

set_option maxHeartbeats 8000000 in
/-- The second bias, cast to a row. -/
theorem W6_v74 (c : Dev nD) : W6 m ρ c (Proc.devRef .tc main_v74) = Cert.Spec.asRow (a6 m c) := by
  show StableHlo.after hostOps3 (W5 m ρ c) (Proc.devRef .tc main_v74) = _
  dsimp only [hostOps3]
  read_stretch
  rw [W5_arg6 m ρ c]
  exact Cert.Spec.shapeCast_row (a6 m c) _

/-! ## What the stretch leaves untouched -/

set_option maxHeartbeats 8000000 in
theorem W6_arg2 (c : Dev nD) : W6 m ρ c (Proc.devRef .tc main_arg2) = a2 m c := by
  show StableHlo.after hostOps3 (W5 m ρ c) (Proc.devRef .tc main_arg2) = _
  dsimp only [hostOps3]; read_stretch; exact W5_arg2 m ρ c
set_option maxHeartbeats 8000000 in
theorem W6_arg7 (c : Dev nD) : W6 m ρ c (Proc.devRef .tc main_arg7) = a7 m c := by
  show StableHlo.after hostOps3 (W5 m ρ c) (Proc.devRef .tc main_arg7) = _
  dsimp only [hostOps3]; read_stretch; exact W5_arg7 m ρ c
set_option maxHeartbeats 8000000 in
theorem W6_arg8 (c : Dev nD) : W6 m ρ c (Proc.devRef .tc main_arg8) = a8 m c := by
  show StableHlo.after hostOps3 (W5 m ρ c) (Proc.devRef .tc main_arg8) = _
  dsimp only [hostOps3]; read_stretch; exact W5_arg8 m ρ c

end Cert.KernelIdeal.Levels

end
-- ==== Proof.PreDecode.lean ====
/-
  What the precondition says of the graph-index input: its last conjunct is "every word of `batch` is at least 0
  as a signed number" (an and-reduction of the signed comparison with the zero splat). For such words the wrapping
  of a negative index — select (x < 0) (x + n) x, lane by lane — is the identity.
-/
import proofs.«114467_j33964601377212_1_alg».proof.Pre_finite_inputs
import Idealize.ShloMosaic.Lib.ReduceAll
import Idealize.ShloMosaic.Lib.Affine
import Idealize.ShloMosaic.Lib.ValueIdx
import Idealize.ShloMosaic.PureOps.Ideal

noncomputable section

namespace Cert.Pre_finite_inputs.Decode

open Idealize.ShloMosaic Cert.Pre_finite_inputs

/-- Wrapping a negative index by adding the extent leaves a vector of non-negative words as it is. -/
theorem wrap_id {s : Shape} (x : IVec s 32) (hx : ∀ i, IntOp.cmpi .sge (x i) 0#32 = 1#1) (z k : IVec s 32)
    (hz : ∀ i, z i = 0#32) : select (cmpi .slt x z) (addi x k) x = x := by
  funext i
  show Scalar.select (IntOp.cmpi .slt (x i) (z i)) (IntOp.addi (x i) (k i)) (x i) = x i
  rw [hz i]
  unfold Scalar.select
  rw [if_neg]
  intro hlt
  have h1 := IntOp.cmpi_slt.mp hlt
  have h2 := IntOp.cmpi_sge.mp (hx i)
  have h3 : (0#32 : BitVec 32).toInt = 0 := by decide
  omega

variable [Facts]

instance : Subsingleton S_.Idx := ⟨fun a b => funext fun d => d.elim0⟩

/-- Under the precondition every graph index is non-negative (read signed). -/
theorem batch_nonneg {F : FTy → Type} [FloatOps F] (a0 : FVec F S50000x64 .f32) (a1 : IVec S2x800000 32) (a2 : IVec S50000 32)
    (a3 : FVec F S64x64 .f32) (a4 : FVec F S64 .f32) (a5 : FVec F S64x64 .f32) (a6 : FVec F S64 .f32) (a7 : FVec F S64x10 .f32)
    (a8 : FVec F S10 .f32) (h : fn (F := F) a0 a1 a2 a3 a4 a5 a6 a7 a8 = fun _ => 1#1) (i : S50000.Idx) :
    IntOp.cmpi .sge (a2 i) 0#32 = 1#1 := by
  have h0 := congrFun h ValueIdx.ix0
  dsimp only [fn, fn_part1, fn_part2] at h0
  have h1 : Host.reduce IntOp.andi (cmpi .sge a2 (broadcastInDim S50000 ![] Facts.bcast_S_S50000 (constantI S_ 32 0#32)))
      (constantI S_ 1 1#1) Facts.reducesTo_S50000_S_d0 Facts.h_S_ ValueIdx.ix0 = 1#1 := (IntOp.andi_eq_one.mp h0).2
  exact Host.reduce_andi_all _ _ _ _ _ h1 i

end Cert.Pre_finite_inputs.Decode

end
-- ==== Proof.Stretch4.lean ====
/-
  The last stretch, before the classifier: the mean pool. The second layer's activations are scatter-added per graph
  at the wrapped graph index, a vector of ones likewise (the node count of each graph), and the sums are divided by
  the counts clamped below at 1; the classifier's bias is cast to a row. The reference scatters at the graph index
  as given. Under the precondition every graph index is non-negative, so the wrap is the identity and the two
  programs scatter at the same indices: the pooled array is the reference's.
-/
import proofs.«114467_j33964601377212_1_alg».proof.Proof.Stretch3
import proofs.«114467_j33964601377212_1_alg».proof.Proof.PreDecode

set_option maxRecDepth 16384

noncomputable section

namespace Cert.KernelIdeal.Levels

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the second bias region (level 7) leaves untouched -/

theorem W7_arg2 (c : Dev nD) : W7 m ρ c (Proc.devRef .tc main_arg2) = a2 m c :=
  (W7_of_ne m ρ c main_arg2 (by decide)).trans (W6_arg2 m ρ c)
theorem W7_arg7 (c : Dev nD) : W7 m ρ c (Proc.devRef .tc main_arg7) = a7 m c :=
  (W7_of_ne m ρ c main_arg7 (by decide)).trans (W6_arg7 m ρ c)
theorem W7_arg8 (c : Dev nD) : W7 m ρ c (Proc.devRef .tc main_arg8) = a8 m c :=
  (W7_of_ne m ρ c main_arg8 (by decide)).trans (W6_arg8 m ρ c)

/-! ## The stretch's results -/

set_option maxHeartbeats 8000000 in
/-- The pooled array is the reference's, given non-negative graph indices and the second layer's activations at the
    reference's. -/
theorem W8_v97 (c : Dev nD)
    (hnn : ∀ i, IntOp.cmpi .sge ((a2 m c : IVec S50000 32) i) 0#32 = 1#1)
    (h75 : W7 m ρ c (Proc.devRef .tc main_v75)
      = Cert.ReferenceIdeal.Read.val_main_v106 (F := Ideal) (a0 m c) (a1 m c) (a3 m c) (a4 m c) (a5 m c) (a6 m c)) :
    W8 m ρ c (Proc.devRef .tc main_v97)
      = Cert.ReferenceIdeal.Read.val_main_v118 (F := Ideal) (a0 m c) (a1 m c) (a2 m c) (a3 m c) (a4 m c) (a5 m c) (a6 m c) := by
  show StableHlo.after hostOps4 (W7 m ρ c) (Proc.devRef .tc main_v97) = _
  dsimp only [hostOps4]
  read_stretch
  rw [h75, W7_arg2 m ρ c]
  rw [Cert.Pre_finite_inputs.Decode.wrap_id (a2 m c : IVec S50000 32) hnn
    (broadcastInDim S50000 ![] bcast_S_S50000 (constantI S_ 32 0#32))
    (broadcastInDim S50000 ![] bcast_S_S50000 (constantI S_ 32 500#32)) (fun _ => rfl)]
  rfl

set_option maxHeartbeats 8000000 in
/-- The classifier's bias, cast to a row. -/
theorem W8_v98 (c : Dev nD) : W8 m ρ c (Proc.devRef .tc main_v98) = Cert.Spec.asRow (a8 m c) := by
  show StableHlo.after hostOps4 (W7 m ρ c) (Proc.devRef .tc main_v98) = _
  dsimp only [hostOps4]
  read_stretch
  rw [W7_arg8 m ρ c]
  exact Cert.Spec.shapeCast_row (a8 m c) _

set_option maxHeartbeats 8000000 in
theorem W8_arg7 (c : Dev nD) : W8 m ρ c (Proc.devRef .tc main_arg7) = a7 m c := by
  show StableHlo.after hostOps4 (W7 m ρ c) (Proc.devRef .tc main_arg7) = _
  dsimp only [hostOps4]; read_stretch; exact W7_arg7 m ρ c

end Cert.KernelIdeal.Levels

end
-- ==== Proof.LibPlainMatmul.lean ====
/-
  A plain matrix product read at an entry.  For the dimension numbers of an `M × K` by `K × N` product
  (`DotDims.plain`: the left operand contracted on its columns, the right on its rows, no batch axis), a
  `tpu.matmul` into the zero splat is, at the extended reals and at row `r`, column `c`, the sum over
  `k : Fin K` of the left operand at `(r, k)` times the right at `(k, c)`.  Nothing here names a program.
-/
import Idealize.ShloMosaic.PureOps.Ideal.Laws
import Idealize.ShloMosaic.Lib.ValueIdx

namespace Cert.PlainMatmul

open Idealize.ShloMosaic Idealize.ShloMosaic.ValueIdx

/-- The left operand's index of a plain product at output `(r, c)` and contraction coordinate `k` is `(r, k)`. -/
theorem lhsIdx_plain {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r c) _).trans hk

/-- The right operand's index there is `(k, c)`. -/
theorem rhsIdx_plain {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 r c) _).trans hk
  | ⟨1, _⟩ => rfl

/-- A plain `tpu.matmul` into zeros, at entry `(r, c)`, is `∑ k, a (r, k) * b (k, c)` on the extended reals. -/
theorem matmul_plain_zero_apply {M K N : ℕ} {φ₁ φ₂ : FTy}
    (a : FVec Ideal ⟨2, ![M, K]⟩ φ₁) (b : FVec Ideal ⟨2, ![K, N]⟩ φ₂) (prec : Option ContractPrecision) (r : Fin M) (c : Fin N) :
    matmul (DotDims.plain M K N) prec a b (constant ⟨2, ![M, N]⟩ .f32 0x00000000#32) (ix2 r c)
      = ∑ k : Fin K, a (ix2 r k) * b (ix2 k c) := by
  show FloatOps.matmul (DotDims.plain M K N) prec a b (constant ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.PlainMatmul
-- ==== Proof.RegionMatmul0.lean ====
/-
  Region 0 (the first feature transform): the grid's ten points each store, into rows 5000·t … 5000·t + 4999 of the
  output array, the product of that row block of the left operand with the whole 64 × 64 right operand (the change of
  float format before the product is the identity on the extended reals, and the accumulator is the zero splat).
  Entry (r, q) of a block's product depends on row r of the block only, so the ten blocks together are the product
  of the whole 50000 × 64 array with the right operand: `arr_eq`, the output array after the region at the host's
  `dot_general` of the two arrays as the region finds them.
-/
import proofs.«114467_j33964601377212_1_alg».proof.Proof.Gen.KernelIdeal.Frame
import proofs.«114467_j33964601377212_1_alg».proof.Proof.LibPlainMatmul
import proofs.«114467_j33964601377212_1_alg».proof.Proof.Spec
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The left operand's array and the right operand's array as the region finds them, at their literal types. -/
abbrev xarr (c : Dev nD) : Vec Ideal S50000x64 .f32 := V c main_arg0
abbrev warr (c : Dev nD) : Vec Ideal S64x64 .f32 := V c main_arg3

/-- The body's store at entry (p, q) of the block: row p of the loaded block against column q of the right operand. -/
theorem pay_apply (x0 : Vec Ideal S5000x64 .f32) (x1 : Vec Ideal S64x64 .f32) (p : Fin 5000) (q : Fin 64) :
    k0_pay1 (F := Ideal) x0 x1 (ix2 p q) = ∑ k : Fin 64, x0 (ix2 p k) * x1 (ix2 k q) := by
  unfold k0_pay1
  exact Cert.PlainMatmul.matmul_plain_zero_apply (M := 5000) (K := 64) (N := 64) x0 x1 none p q

/-- The printed index maps over the ten points: the left operand's block and the output's block sit at the same
    row-block index (at most 9) and column-block 0; the right operand's one block is at (0, 0). -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the whole product. -/
theorem flushed_eq (c : Dev nD) (t : Fin cfg0.N) :
    (dat0 V c).flushed 2 t = ((cfg0.win 2).blk t).view.read (Elt Ideal) (Cert.Spec.prod (xarr V c) (warr V c)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  refine (pay_apply (iblk0 V c 0 t) (iblk0 V c 1 t) p q).trans ?_
  show (∑ k : Fin 64, xarr V c (((cfg0.win 0).blk t).view.emb (ix2 p k)) * warr V c (((cfg0.win 1).blk t).view.emb (ix2 k q)))
    = ∑ k : Fin 64, xarr V c (ix2 ((((cfg0.win 2).blk t).view.emb (ix2 p q)) 0) k) * warr V c (ix2 k ((((cfg0.win 2).blk t).view.emb (ix2 p q)) 1))
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 64 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega
  exact congrArg₂ (· * ·) (congrArg (xarr V c) h0) (congrArg (warr V c) h1)

/-- An index of the output array lies in point `t`'s block iff each coordinate lies in the block's range. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v34).slice (win0_2.rect t)).set ↔ _
  rw [View.set_slice_whole, Rect.mem_set_unit]
  exact Iff.rfl

/-- The ten row blocks cover the output array: row r lies in block r / 5000. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the region: the whole product of the two arrays as the region finds them. -/
theorem arr_prod (c : Dev nD) : (dat0 V c).arrAt 2 cfg0.N = Cert.Spec.prod (xarr V c) (warr V c) :=
  (dat0 V c).arrAt_eq_of_cover 2 (Cert.Spec.prod (xarr V c) (warr V c)) (fun t _ => flushed_eq V c t) cover

end Cert.KernelIdeal.Region0

end
-- ==== Proof.RegionMatmul2.lean ====
/-
  Region 2 (the second feature transform): as in the first, each of the ten grid points stores into rows
  5000·t … 5000·t + 4999 of the output the product of that row block of the left operand (here the first layer's
  rectified activations) with the whole 64 × 64 right operand; the body's cast of the block to its own shape and the
  change of float format are both the identity. The ten blocks together are the whole product: `arr_prod`.
-/
import proofs.«114467_j33964601377212_1_alg».proof.Proof.Gen.KernelIdeal.Frame
import proofs.«114467_j33964601377212_1_alg».proof.Proof.LibPlainMatmul
import proofs.«114467_j33964601377212_1_alg».proof.Proof.Spec
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The left operand's array (the first layer's output) and the right operand's array as the region finds them. -/
abbrev xarr (c : Dev nD) : Vec Ideal S50000x64 .f32 := V c main_v54
abbrev warr (c : Dev nD) : Vec Ideal S64x64 .f32 := V c main_arg5

/-- The body's store at entry (p, q) of the block: row p of the loaded block against column q of the right operand;
    the cast of the block to its own shape reads each entry where it is. -/
theorem pay_apply (x0 : Vec Ideal S5000x64 .f32) (x1 : Vec Ideal S64x64 .f32) (p : Fin 5000) (q : Fin 64) :
    k2_pay1 (F := Ideal) x0 x1 (ix2 p q) = ∑ k : Fin 64, x0 (ix2 p k) * x1 (ix2 k q) := by
  unfold k2_pay1
  rw [shapeCast_self]
  exact Cert.PlainMatmul.matmul_plain_zero_apply (M := 5000) (K := 64) (N := 64) x0 x1 none p q

/-- The printed index maps over the ten points: the left operand's block and the output's block sit at the same
    row-block index (at most 9) and column-block 0; the right operand's one block is at (0, 0). -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every row block is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- What point `t` writes back is block `t` of the whole product. -/
theorem flushed_eq (c : Dev nD) (t : Fin cfg2.N) :
    (dat2 V c).flushed 2 t = ((cfg2.win 2).blk t).view.read (Elt Ideal) (Cert.Spec.prod (xarr V c) (warr V c)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  refine (pay_apply (iblk2 V c 0 t) (iblk2 V c 1 t) p q).trans ?_
  show (∑ k : Fin 64, xarr V c (((cfg2.win 0).blk t).view.emb (ix2 p k)) * warr V c (((cfg2.win 1).blk t).view.emb (ix2 k q)))
    = ∑ k : Fin 64, xarr V c (ix2 ((((cfg2.win 2).blk t).view.emb (ix2 p q)) 0) k) * warr V c (ix2 k ((((cfg2.win 2).blk t).view.emb (ix2 p q)) 1))
  refine Finset.sum_congr rfl fun k _ => ?_
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 64 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  exact congrArg₂ (· * ·) (congrArg (xarr V c) h0) (congrArg (warr V c) h1)

/-- An index of the output array lies in point `t`'s block iff each coordinate lies in the block's range. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v55).slice (win2_2.rect t)).set ↔ _
  rw [View.set_slice_whole, Rect.mem_set_unit]
  exact Iff.rfl

/-- The ten row blocks cover the output array: row r lies in block r / 5000. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The output array after the region: the whole product of the two arrays as the region finds them. -/
theorem arr_prod (c : Dev nD) : (dat2 V c).arrAt 2 cfg2.N = Cert.Spec.prod (xarr V c) (warr V c) :=
  (dat2 V c).arrAt_eq_of_cover 2 (Cert.Spec.prod (xarr V c) (warr V c)) (fun t _ => flushed_eq V c t) cover

end Cert.KernelIdeal.Region2

end
-- ==== Proof.RegionBiasRelu1.lean ====
/-
  Region 1 (bias and rectification after the first aggregation): each of the grid's ten points stores, into rows
  5000·t … 5000·t + 4999 of the output array, the entrywise maximum with zero of that row block of the first
  operand plus the second operand's single row (the same row added to every row of the block). Entry (r, q) of a
  stored block depends on entry (r, q) of the loaded block and on entry (0, q) of the row only, so the ten blocks
  together are the whole-array function `Cert.Spec.biasRelu` of the two arrays as the region finds them.
-/
import proofs.«114467_j33964601377212_1_alg».proof.Proof.Gen.KernelIdeal.Frame
import proofs.«114467_j33964601377212_1_alg».proof.Proof.Spec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The array to be biased and the one-row bias array as the region finds them, at their literal types. -/
abbrev aarr (c : Dev nD) : Vec Ideal S50000x64 .f32 := V c main_v52
abbrev barr (c : Dev nD) : Vec Ideal S1x64 .f32 := V c main_v53

/-- The body's store at entry (p, q) of the block: the loaded block's entry plus the row's entry in column q,
    then the maximum with the zero the body splats. -/
theorem pay_apply (x0 : Vec Ideal S5000x64 .f32) (x1 : Vec Ideal S1x64 .f32) (p : Fin 5000) (q : Fin 64) :
    k1_pay1 (F := Ideal) x0 x1 (ix2 p q)
      = max (x0 (ix2 p q) + x1 (ix2 (0 : Fin 1) q)) (Ideal.ofBits .f32 0x00000000#32) := by
  unfold k1_pay1
  simp only [shapeCast_self]
  rw [maximumf_apply, addf_apply, broadcast_apply]
  have hb : broadcastTo S5000x64 x1 broadcasts_S1x64_S5000x64 (ix2 p q) = x1 (ix2 (0 : Fin 1) q) :=
    broadcastTo_apply x1 broadcasts_S1x64_S5000x64 (ix2 p q) (ix2 (0 : Fin 1) q) (fun a => by
      match a with
      | ⟨0, _⟩ => rfl
      | ⟨1, _⟩ => rfl)
  rw [hb]
  rfl

/-- The printed index maps over the ten points: the first operand's block and the output's block sit at the same
    row-block index (at most 9) and column-block 0; the row operand's one block is at (0, 0). -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- What point `t` writes back is block `t` of the whole biased, rectified array. -/
theorem flushed_eq (c : Dev nD) (t : Fin cfg1.N) :
    (dat1 V c).flushed 2 t
      = ((cfg1.win 2).blk t).view.read (Elt Ideal) (Cert.Spec.biasRelu (aarr V c) (barr V c)) := by
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  refine (pay_apply (iblk1 V c 0 t) (iblk1 V c 1 t) p q).trans ?_
  show max (aarr V c (((cfg1.win 0).blk t).view.emb (ix2 p q))
        + barr V c (((cfg1.win 1).blk t).view.emb (ix2 (0 : Fin 1) q))) (Ideal.ofBits .f32 0x00000000#32)
    = max (aarr V c (((cfg1.win 2).blk t).view.emb (ix2 p q))
        + barr V c (ix2 (0 : Fin 1) ((((cfg1.win 2).blk t).view.emb (ix2 p q)) 1))) (Ideal.ofBits .f32 0x00000000#32)
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 64 + 1 * q.val = win1_2.index t (1 : Fin 2) * 64 + 1 * q.val; omega
  have h1 : ((cfg1.win 1).blk t).view.emb (ix2 (0 : Fin 1) q)
      = ix2 (0 : Fin 1) ((((cfg1.win 2).blk t).view.emb (ix2 p q)) 1) := by
    funext a; apply Fin.ext
    match a with
    | ⟨0, _⟩ => show win1_1.index t (0 : Fin 2) * 1 + 1 * (0 : Fin 1).val = (0 : Fin 1).val; simp only [Fin.val_zero]; omega
    | ⟨1, _⟩ => show win1_1.index t (1 : Fin 2) * 64 + 1 * q.val = win1_2.index t (1 : Fin 2) * 64 + 1 * q.val; omega
  exact congrArg (fun z => max z (Ideal.ofBits .f32 0x00000000#32))
    (congrArg₂ (· + ·) (congrArg (aarr V c) h0) (congrArg (barr V c) h1))

/-- An index of the output array lies in point `t`'s block iff each coordinate lies in the block's range. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v54).slice (win1_2.rect t)).set ↔ _
  rw [View.set_slice_whole, Rect.mem_set_unit]
  exact Iff.rfl

/-- The ten row blocks cover the output array: row r lies in block r / 5000. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The output array after the region: the bias added and the result rectified, over the whole array. -/
theorem arr_biasRelu (c : Dev nD) : (dat1 V c).arrAt 2 cfg1.N = Cert.Spec.biasRelu (aarr V c) (barr V c) :=
  (dat1 V c).arrAt_eq_of_cover 2 (Cert.Spec.biasRelu (aarr V c) (barr V c)) (fun t _ => flushed_eq V c t) cover

end Cert.KernelIdeal.Region1

end
-- ==== Proof.RegionBiasRelu3.lean ====
/-
  Region 3 (bias and rectification after the second aggregation): each of the grid's ten points stores, into rows
  5000·t … 5000·t + 4999 of the output array, the entrywise maximum with zero of that row block of the first
  operand plus the second operand's single row (the same row added to every row of the block). Entry (r, q) of a
  stored block depends on entry (r, q) of the loaded block and on entry (0, q) of the row only, so the ten blocks
  together are the whole-array function `Cert.Spec.biasRelu` of the two arrays as the region finds them.
-/
import proofs.«114467_j33964601377212_1_alg».proof.Proof.Gen.KernelIdeal.Frame
import proofs.«114467_j33964601377212_1_alg».proof.Proof.Spec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The array to be biased and the one-row bias array as the region finds them, at their literal types. -/
abbrev aarr (c : Dev nD) : Vec Ideal S50000x64 .f32 := V c main_v73
abbrev barr (c : Dev nD) : Vec Ideal S1x64 .f32 := V c main_v74

/-- The body's store at entry (p, q) of the block: the loaded block's entry plus the row's entry in column q,
    then the maximum with the zero the body splats. -/
theorem pay_apply (x0 : Vec Ideal S5000x64 .f32) (x1 : Vec Ideal S1x64 .f32) (p : Fin 5000) (q : Fin 64) :
    k3_pay1 (F := Ideal) x0 x1 (ix2 p q)
      = max (x0 (ix2 p q) + x1 (ix2 (0 : Fin 1) q)) (Ideal.ofBits .f32 0x00000000#32) := by
  unfold k3_pay1
  simp only [shapeCast_self]
  rw [maximumf_apply, addf_apply, broadcast_apply]
  have hb : broadcastTo S5000x64 x1 broadcasts_S1x64_S5000x64 (ix2 p q) = x1 (ix2 (0 : Fin 1) q) :=
    broadcastTo_apply x1 broadcasts_S1x64_S5000x64 (ix2 p q) (ix2 (0 : Fin 1) q) (fun a => by
      match a with
      | ⟨0, _⟩ => rfl
      | ⟨1, _⟩ => rfl)
  rw [hb]
  rfl

/-- The printed index maps over the ten points: the first operand's block and the output's block sit at the same
    row-block index (at most 9) and column-block 0; the row operand's one block is at (0, 0). -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 9 :=
  (by decide +kernel : ∀ t : Fin grid3.N, _)

/-- Every row block is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- What point `t` writes back is block `t` of the whole biased, rectified array. -/
theorem flushed_eq (c : Dev nD) (t : Fin cfg3.N) :
    (dat3 V c).flushed 2 t
      = ((cfg3.win 2).blk t).view.read (Elt Ideal) (Cert.Spec.biasRelu (aarr V c) (barr V c)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  refine (pay_apply (iblk3 V c 0 t) (iblk3 V c 1 t) p q).trans ?_
  show max (aarr V c (((cfg3.win 0).blk t).view.emb (ix2 p q))
        + barr V c (((cfg3.win 1).blk t).view.emb (ix2 (0 : Fin 1) q))) (Ideal.ofBits .f32 0x00000000#32)
    = max (aarr V c (((cfg3.win 2).blk t).view.emb (ix2 p q))
        + barr V c (ix2 (0 : Fin 1) ((((cfg3.win 2).blk t).view.emb (ix2 p q)) 1))) (Ideal.ofBits .f32 0x00000000#32)
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * q.val = win3_2.index t (1 : Fin 2) * 64 + 1 * q.val; omega
  have h1 : ((cfg3.win 1).blk t).view.emb (ix2 (0 : Fin 1) q)
      = ix2 (0 : Fin 1) ((((cfg3.win 2).blk t).view.emb (ix2 p q)) 1) := by
    funext a; apply Fin.ext
    match a with
    | ⟨0, _⟩ => show win3_1.index t (0 : Fin 2) * 1 + 1 * (0 : Fin 1).val = (0 : Fin 1).val; simp only [Fin.val_zero]; omega
    | ⟨1, _⟩ => show win3_1.index t (1 : Fin 2) * 64 + 1 * q.val = win3_2.index t (1 : Fin 2) * 64 + 1 * q.val; omega
  exact congrArg (fun z => max z (Ideal.ofBits .f32 0x00000000#32))
    (congrArg₂ (· + ·) (congrArg (aarr V c) h0) (congrArg (barr V c) h1))

/-- An index of the output array lies in point `t`'s block iff each coordinate lies in the block's range. -/
theorem mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v75).slice (win3_2.rect t)).set ↔ _
  rw [View.set_slice_whole, Rect.mem_set_unit]
  exact Iff.rfl

/-- The ten row blocks cover the output array: row r lies in block r / 5000. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The output array after the region: the bias added and the result rectified, over the whole array. -/
theorem arr_biasRelu (c : Dev nD) : (dat3 V c).arrAt 2 cfg3.N = Cert.Spec.biasRelu (aarr V c) (barr V c) :=
  (dat3 V c).arrAt_eq_of_cover 2 (Cert.Spec.biasRelu (aarr V c) (barr V c)) (fun t _ => flushed_eq V c t) cover

end Cert.KernelIdeal.Region3

end
-- ==== Proof.SpecClassify.lean ====
/-
  The classifier stage as one whole-array function on the extended reals, over literal shapes: a 500 × 64 array of
  pooled features times a 64 × 10 weight array, a 1 × 10 bias row added to every row of the product, and then the
  logarithm of the softmax along each row, written the numerically stable way both programs write it: subtract the
  row's greatest entry, then subtract the logarithm of the row's sum of exponentials. Both programs are proved to
  compute `classify`; nothing here names a program.
-/
import Idealize.ShloMosaic.PureOps.Ideal
import Idealize.ShloMosaic.Lib.ValueIdx

noncomputable section

namespace Cert.Spec

open Idealize.ShloMosaic Idealize.ShloMosaic.ValueIdx

/-- Entry (r, q) of the scores: the sum over k of p (r, k) · w (k, q), plus the bias b (0, q). -/
def logits (p : Vec Ideal ⟨2, ![500, 64]⟩ .f32) (w : Vec Ideal ⟨2, ![64, 10]⟩ .f32) (b : Vec Ideal ⟨2, ![1, 10]⟩ .f32) :
    Vec Ideal ⟨2, ![500, 10]⟩ .f32 :=
  fun i => (∑ k : Fin 64, p (ix2 (i 0) k) * w (ix2 k (i 1))) + b (ix2 (0 : Fin 1) (i 1))

/-- The greatest entry of row r: `max` folded from −∞ over the row's ten columns, in any order. -/
def rowMax (l : Vec Ideal ⟨2, ![500, 10]⟩ .f32) (r : Fin 500) : Ideal .f32 :=
  (Finset.univ : Finset (Fin 10)).fold max ⊥ fun k => l (ix2 r k)

/-- Every entry less its row's greatest entry. -/
def shifted (l : Vec Ideal ⟨2, ![500, 10]⟩ .f32) : Vec Ideal ⟨2, ![500, 10]⟩ .f32 :=
  fun i => l i - rowMax l (i 0)

/-- The sum over row r of the exponentials of the shifted entries. -/
def rowExpSum (l : Vec Ideal ⟨2, ![500, 10]⟩ .f32) (r : Fin 500) : Ideal .f32 :=
  ∑ k : Fin 10, Ideal.exp (shifted l (ix2 r k))

/-- The logarithm of the softmax along each row: the shifted entry less the logarithm of its row's sum of exponentials. -/
def logSoftmax (l : Vec Ideal ⟨2, ![500, 10]⟩ .f32) : Vec Ideal ⟨2, ![500, 10]⟩ .f32 :=
  fun i => shifted l i - Ideal.log (rowExpSum l (i 0))

/-- The classifier stage: the log-softmax of the biased product. -/
def classify (p : Vec Ideal ⟨2, ![500, 64]⟩ .f32) (w : Vec Ideal ⟨2, ![64, 10]⟩ .f32) (b : Vec Ideal ⟨2, ![1, 10]⟩ .f32) :
    Vec Ideal ⟨2, ![500, 10]⟩ .f32 :=
  logSoftmax (logits p w b)

/-- The f32 pattern of −∞, the value both programs start a row's maximum from, is the least extended real. -/
theorem negInf_f32 : Ideal.ofBits .f32 0xFF800000#32 = ⊥ := by simp [Ideal.ofBits, Ideal.ieee]

end Cert.Spec

end
-- ==== Proof.RegionClassifier4.lean ====
/-
  Region 4 (the classifier): the grid has one point and every window's block is its whole array. The body multiplies
  the 500 × 64 block by the 64 × 10 block (the change of float format before the product is the identity on the
  extended reals, and the accumulator is the zero splat), adds the 1 × 10 bias row to every row, subtracts from every
  entry the reduction of its row by `max` from −∞, and subtracts from that the logarithm of the row's sum of
  exponentials. A one-axis reduction read at a row is a fold, or a sum, over the row's ten columns, so the stored block
  is the classifier stage of the three arrays as the region finds them, and the one block is the whole output array:
  `arr_classify`.
-/
import proofs.«114467_j33964601377212_1_alg».proof.Proof.Gen.KernelIdeal.Frame
import proofs.«114467_j33964601377212_1_alg».proof.Proof.LibPlainMatmul
import proofs.«114467_j33964601377212_1_alg».proof.Proof.SpecClassify
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws
import Idealize.ShloMosaic.PureOps.Reduce

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- A length-a vector cast to an a × 1 array reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 array broadcast along its rows to a × b reads, at (p, c), the array at (p, 0). -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index over row p with column k inserted is (p, k). -/
theorem lift_row (p : Fin 500) (k : Fin 10) : reduces_S500x10_S500.lift (ix1 p) k = ix2 p k := by
  funext a; apply Fin.ext
  match a with
  | ⟨0, _⟩ => rfl
  | ⟨1, _⟩ => rfl

/-- The body's scores: the product of the two loaded blocks (the change of float format is the identity here, the
    accumulator the zero splat) plus the bias row broadcast down the rows. -/
def scoresK (x0 : Vec Ideal S500x64 .f32) (x1 : Vec Ideal S64x10 .f32) (x2 : Vec Ideal S1x10 .f32) : FVec Ideal S500x10 .f32 :=
  addf (matmul dot_S500x64_S64x10_S500x10_1_0_0_1_n_n none
      (truncf .bf16 (shapeCast S500x64 x0 shapeCasts_S500x64_S500x64) bitsLt_bf16_f32) (truncf .bf16 x1 bitsLt_bf16_f32)
      (constant S500x10 .f32 0x00000000#32))
    (broadcastTo S500x10 (shapeCast S1x10 x2 shapeCasts_S1x10_S1x10) broadcasts_S1x10_S500x10)

/-- The body's shift: every entry less the reduction of its row by `max` from −∞. -/
def shiftedK (l : FVec Ideal S500x10 .f32) : FVec Ideal S500x10 .f32 :=
  subf l (broadcastTo S500x10 (shapeCast S500x1
    (multiReduction .maximumf [1] S500 l 0xFF800000#32 reduces_S500x10_S500 (.inl rfl) rfl) shapeCasts_S500_S500x1) broadcasts_S500x1_S500x10)

/-- The body's last step: the shifted entry less the logarithm of the row's sum of exponentials. -/
def postK (l : FVec Ideal S500x10 .f32) : FVec Ideal S500x10 .f32 :=
  subf (shiftedK l) (broadcastTo S500x10 (log (shapeCast S500x1
    (multiReduction .add [1] S500 (exp (shiftedK l)) 0x00000000#32 reduces_S500x10_S500 (.inl rfl) rfl) shapeCasts_S500_S500x1)) broadcasts_S500x1_S500x10)

/-- The body's payload is those three steps composed. -/
theorem pay_eq (x0 : Vec Ideal S500x64 .f32) (x1 : Vec Ideal S64x10 .f32) (x2 : Vec Ideal S1x10 .f32) :
    k4_pay1 (F := Ideal) x0 x1 x2 = postK (scoresK x0 x1 x2) := rfl

/-- The row reduction by `max` at row p is the row's greatest entry. -/
theorem rowmax_apply (l : FVec Ideal S500x10 .f32) (p : Fin 500) :
    multiReduction .maximumf [1] S500 l 0xFF800000#32 reduces_S500x10_S500 (.inl rfl) rfl (ix1 p) = Cert.Spec.rowMax l p := by
  refine (Ideal.multiReduction_maximumf_single l _ reduces_S500x10_S500 (.inl rfl) rfl (ix1 p)).trans ?_
  show (Finset.univ : Finset (Fin 10)).fold max (Ideal.ofBits .f32 0xFF800000#32) (l ∘ reduces_S500x10_S500.lift (ix1 p)) = _
  rw [Cert.Spec.negInf_f32]
  unfold Cert.Spec.rowMax
  refine congrArg (fun f => Finset.fold max ⊥ f Finset.univ) (funext fun k => ?_)
  exact congrArg l (lift_row p k)

theorem shiftedK_eq (l : FVec Ideal S500x10 .f32) : shiftedK l = Cert.Spec.shifted l := by
  funext i
  obtain ⟨p, q, rfl⟩ : ∃ (p : Fin 500) (q : Fin 10), i = ix2 p q := ⟨i 0, i 1, eq_ix2 i⟩
  show l (ix2 p q) - broadcastTo S500x10 (shapeCast S500x1
    (multiReduction .maximumf [1] S500 l 0xFF800000#32 reduces_S500x10_S500 (.inl rfl) rfl) shapeCasts_S500_S500x1) broadcasts_S500x1_S500x10 (ix2 p q)
    = l (ix2 p q) - Cert.Spec.rowMax l p
  rw [broadcastTo_a1_ab_apply, shapeCast_a_a1_apply, rowmax_apply]

/-- The scores at entry (p, q): row p of the first block against column q of the second, plus the bias at column q. -/
theorem scoresK_eq (x0 : Vec Ideal S500x64 .f32) (x1 : Vec Ideal S64x10 .f32) (x2 : Vec Ideal S1x10 .f32) :
    scoresK x0 x1 x2 = Cert.Spec.logits x0 x1 x2 := by
  funext i
  obtain ⟨p, q, rfl⟩ : ∃ (p : Fin 500) (q : Fin 10), i = ix2 p q := ⟨i 0, i 1, eq_ix2 i⟩
  unfold scoresK Cert.Spec.logits
  rw [shapeCast_self, shapeCast_self, addf_apply, broadcastTo_1b_ab_apply]
  exact congrArg (· + x2 (ix2 (0 : Fin 1) q))
    (Cert.PlainMatmul.matmul_plain_zero_apply (M := 500) (K := 64) (N := 10) (truncf .bf16 x0 bitsLt_bf16_f32) (truncf .bf16 x1 bitsLt_bf16_f32) none p q)

/-- The last step at entry (p, q): the shifted entry less the logarithm of row p's sum of exponentials. -/
theorem postK_eq (l : FVec Ideal S500x10 .f32) : postK l = Cert.Spec.logSoftmax l := by
  funext i
  obtain ⟨p, q, rfl⟩ : ∃ (p : Fin 500) (q : Fin 10), i = ix2 p q := ⟨i 0, i 1, eq_ix2 i⟩
  show shiftedK l (ix2 p q) - broadcastTo S500x10 (log (shapeCast S500x1
      (multiReduction .add [1] S500 (exp (shiftedK l)) 0x00000000#32 reduces_S500x10_S500 (.inl rfl) rfl) shapeCasts_S500_S500x1)) broadcasts_S500x1_S500x10 (ix2 p q)
    = Cert.Spec.shifted l (ix2 p q) - Ideal.log (Cert.Spec.rowExpSum l p)
  rw [broadcastTo_a1_ab_apply]
  show shiftedK l (ix2 p q) - Ideal.log (shapeCast S500x1
      (multiReduction .add [1] S500 (exp (shiftedK l)) 0x00000000#32 reduces_S500x10_S500 (.inl rfl) rfl) shapeCasts_S500_S500x1 (ix2 p (0 : Fin 1)))
    = _
  rw [shapeCast_a_a1_apply, shiftedK_eq]
  refine congrArg (fun s => Cert.Spec.shifted l (ix2 p q) - Ideal.log s) ?_
  refine (Ideal.multiReduction_add_single (exp (Cert.Spec.shifted l)) _ reduces_S500x10_S500 (.inl rfl) rfl (ix1 p)).trans ?_
  show ∑ k : Fin 10, Ideal.exp (Cert.Spec.shifted l (reduces_S500x10_S500.lift (ix1 p) k)) = ∑ k : Fin 10, Ideal.exp (Cert.Spec.shifted l (ix2 p k))
  exact Finset.sum_congr rfl fun k _ => congrArg (fun j => Ideal.exp (Cert.Spec.shifted l j)) (lift_row p k)

/-- The body's store is the classifier stage of the three loaded blocks. -/
theorem pay_classify (x0 : Vec Ideal S500x64 .f32) (x1 : Vec Ideal S64x10 .f32) (x2 : Vec Ideal S1x10 .f32) :
    k4_pay1 (F := Ideal) x0 x1 x2 = Cert.Spec.classify x0 x1 x2 := by
  rw [pay_eq, scoresK_eq, postK_eq]
  rfl

variable (V : (c : Dev nD) → (b : Ref sig .tc) → Buf (Elt Ideal) ((c : Thread nD τ).loc b))

theorem hz : (![0, 0] : Fin 2 → Nat) = fun _ => 0 := funext fun a => by fin_cases a <;> rfl

/-- The pooled features, the classifier's weights and its bias row as the region finds them, at their literal types. -/
abbrev parr (c : Dev nD) : Vec Ideal S500x64 .f32 := V c main_v97
abbrev warr (c : Dev nD) : Vec Ideal S64x10 .f32 := V c main_arg7
abbrev barr (c : Dev nD) : Vec Ideal S1x10 .f32 := V c main_v98

/-- The printed index maps over the grid's one point: every window's block sits at block index (0, 0). -/
theorem idx_facts : ∀ t : Fin cfg4.N, win4_0.index t (0 : Fin 2) = 0
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0 :=
  (by decide +kernel : ∀ t : Fin grid4.N, _)

/-- Window 0's block is the whole array of pooled features. -/
theorem blk0_eq (c : Dev nD) (t : Fin cfg4.N) : iblk4 V c 0 t = parr V c := by
  obtain ⟨e0, e1, -, -, -, -, -, -⟩ := idx_facts t
  funext j
  obtain ⟨p, k, rfl⟩ : ∃ (p : Fin 500) (k : Fin 64), j = ix2 p k := ⟨j 0, j 1, eq_ix2 j⟩
  show parr V c (((cfg4.win 0).blk t).view.emb (ix2 p k)) = parr V c (ix2 p k)
  refine congrArg (parr V c) (funext fun a => Fin.ext ?_)
  match a with
  | ⟨0, _⟩ => show win4_0.index t (0 : Fin 2) * 500 + 1 * p.val = p.val; omega
  | ⟨1, _⟩ => show win4_0.index t (1 : Fin 2) * 64 + 1 * k.val = k.val; omega

/-- Window 1's block is the whole weight array. -/
theorem blk1_eq (c : Dev nD) (t : Fin cfg4.N) : iblk4 V c 1 t = warr V c := by
  obtain ⟨-, -, e0, e1, -, -, -, -⟩ := idx_facts t
  funext j
  obtain ⟨k, q, rfl⟩ : ∃ (k : Fin 64) (q : Fin 10), j = ix2 k q := ⟨j 0, j 1, eq_ix2 j⟩
  show warr V c (((cfg4.win 1).blk t).view.emb (ix2 k q)) = warr V c (ix2 k q)
  refine congrArg (warr V c) (funext fun a => Fin.ext ?_)
  match a with
  | ⟨0, _⟩ => show win4_1.index t (0 : Fin 2) * 64 + 1 * k.val = k.val; omega
  | ⟨1, _⟩ => show win4_1.index t (1 : Fin 2) * 10 + 1 * q.val = q.val; omega

/-- Window 2's block is the whole bias row. -/
theorem blk2_eq (c : Dev nD) (t : Fin cfg4.N) : iblk4 V c 2 t = barr V c := by
  obtain ⟨-, -, -, -, e0, e1, -, -⟩ := idx_facts t
  funext j
  obtain ⟨u, q, rfl⟩ : ∃ (u : Fin 1) (q : Fin 10), j = ix2 u q := ⟨j 0, j 1, eq_ix2 j⟩
  show barr V c (((cfg4.win 2).blk t).view.emb (ix2 u q)) = barr V c (ix2 u q)
  refine congrArg (barr V c) (funext fun a => Fin.ext ?_)
  match a with
  | ⟨0, _⟩ => show win4_2.index t (0 : Fin 2) * 1 + 1 * u.val = u.val; omega
  | ⟨1, _⟩ => show win4_2.index t (1 : Fin 2) * 10 + 1 * q.val = q.val; omega

/-- The output window's block sits over the whole output array: block entry (p, q) is array entry (p, q). -/
theorem emb3_eq (t : Fin cfg4.N) (p : Fin 500) (q : Fin 10) : ((cfg4.win 3).blk t).view.emb (ix2 p q) = ix2 p q := by
  obtain ⟨-, -, -, -, -, -, e0, e1⟩ := idx_facts t
  refine funext fun a => Fin.ext ?_
  match a with
  | ⟨0, _⟩ => show win4_3.index t (0 : Fin 2) * 500 + 1 * p.val = p.val; omega
  | ⟨1, _⟩ => show win4_3.index t (1 : Fin 2) * 10 + 1 * q.val = q.val; omega

/-- What the one point writes back is the classifier stage of the three arrays, read through the output window's block. -/
theorem flushed_eq (c : Dev nD) (t : Fin cfg4.N) :
    (dat4 V c).flushed 3 t = ((cfg4.win 3).blk t).view.read (Elt Ideal) (Cert.Spec.classify (parr V c) (warr V c) (barr V c)) := by
  show (cfg4.win 3).cut (grid4.coords t) ((dat4 V c).after 3 t) = _
  rw [after4_3]
  unfold out4_3
  rw [View.canon_unit_zero hz]
  simp only [View.ld_unit_zero (S := S500x64) hz, View.ld_unit_zero (S := S64x10) hz, View.ld_unit_zero (S := S1x10) hz]
  funext j
  obtain ⟨p, q, rfl⟩ : ∃ (p : Fin 500) (q : Fin 10), j = ix2 p q := ⟨j 0, j 1, eq_ix2 j⟩
  refine (congrFun (pay_classify (iblk4 V c 0 t) (iblk4 V c 1 t) (iblk4 V c 2 t)) (ix2 p q)).trans ?_
  show Cert.Spec.classify (iblk4 V c 0 t) (iblk4 V c 1 t) (iblk4 V c 2 t) (ix2 p q)
    = Cert.Spec.classify (parr V c) (warr V c) (barr V c) (((cfg4.win 3).blk t).view.emb (ix2 p q))
  rw [emb3_eq t p q, blk0_eq V c t, blk1_eq V c t, blk2_eq V c t]

/-- Every index of the output array lies in the one point's block. -/
theorem cover (i : S500x10.Idx) : ∃ t : Fin cfg4.N, (cfg4.win 3).flush t = true ∧ i ∈ ((cfg4.win 3).blk t).view.set := by
  have hi0 : (i 0).val < 500 := (i 0).isLt
  have hi1 : (i 1).val < 10 := (i 1).isLt
  obtain ⟨-, -, -, -, -, -, e0, e1⟩ := idx_facts t4_0
  refine ⟨t4_0, flush4_3 t4_0, ?_⟩
  show i ∈ ((View.whole main_v99).slice (win4_3.rect t4_0)).set
  rw [View.set_slice_whole, Rect.mem_set_unit]
  intro a
  match a with
  | ⟨0, _⟩ => show win4_3.index t4_0 (0 : Fin 2) * 500 ≤ (i 0).val ∧ (i 0).val < win4_3.index t4_0 (0 : Fin 2) * 500 + 500; omega
  | ⟨1, _⟩ => show win4_3.index t4_0 (1 : Fin 2) * 10 ≤ (i 1).val ∧ (i 1).val < win4_3.index t4_0 (1 : Fin 2) * 10 + 10; omega

/-- The output array after the region: the classifier stage of the three arrays as the region finds them. -/
theorem arr_classify (c : Dev nD) : (dat4 V c).arrAt 3 cfg4.N = Cert.Spec.classify (parr V c) (warr V c) (barr V c) :=
  (dat4 V c).arrAt_eq_of_cover 3 (Cert.Spec.classify (parr V c) (warr V c) (barr V c)) (fun t _ => flushed_eq V c t) cover

end Cert.KernelIdeal.Region4

end
-- ==== Proof.RefProd.lean ====
/-
  The reference's two feature transforms are the host's `dot_general` of a 50000 × 64 array with a 64 × 64 one,
  contracting the left operand's columns against the right operand's rows. Read at an entry (r, q) that is the sum
  over k of left (r, k) · right (k, q): the whole-array product `Cert.Spec.prod`.
-/
import proofs.«114467_j33964601377212_1_alg».proof.Proof.Gen.ReferenceIdeal.Read
import proofs.«114467_j33964601377212_1_alg».proof.Proof.Spec

noncomputable section

namespace Cert.ReferenceIdeal.RefSpec

open Cert.ReferenceIdeal Cert.ReferenceIdeal.Read
open Idealize.ShloMosaic Idealize.ShloMosaic.ValueIdx

/-- The left operand's index at output (r, q) and contraction coordinate k is (r, k). -/
theorem lidx7 (i : S50000x64.Idx) (k : Fin 64) : lidx_main_v7 i k = ix2 (i 0) k :=
  funext fun a => Fin.ext (by match a with | ⟨0, _⟩ => rfl | ⟨1, _⟩ => rfl)
/-- The right operand's index there is (k, q). -/
theorem ridx7 (i : S50000x64.Idx) (k : Fin 64) : ridx_main_v7 i k = ix2 k (i 1) :=
  funext fun a => Fin.ext (by match a with | ⟨0, _⟩ => rfl | ⟨1, _⟩ => rfl)
theorem lidx57 (i : S50000x64.Idx) (k : Fin 64) : lidx_main_v57 i k = ix2 (i 0) k :=
  funext fun a => Fin.ext (by match a with | ⟨0, _⟩ => rfl | ⟨1, _⟩ => rfl)
theorem ridx57 (i : S50000x64.Idx) (k : Fin 64) : ridx_main_v57 i k = ix2 k (i 1) :=
  funext fun a => Fin.ext (by match a with | ⟨0, _⟩ => rfl | ⟨1, _⟩ => rfl)

/-- The first layer's transform is the product of the node features with the first weight matrix. -/
theorem v7_eq (x0 : Vec Ideal S50000x64 .f32) (x3 : Vec Ideal S64x64 .f32) :
    val_main_v7 (F := Ideal) x0 x3 = Cert.Spec.prod x0 x3 := by
  funext i
  rw [val_main_v7_apply]
  exact Finset.sum_congr rfl fun k _ => congrArg₂ (· * ·) (congrArg x0 (lidx7 i k)) (congrArg x3 (ridx7 i k))

/-- The second layer's transform is the product of the first layer's activations with the second weight matrix. -/
theorem v57_eq (x0 : Vec Ideal S50000x64 .f32) (x1 : IVec S2x800000 32) (x3 : Vec Ideal S64x64 .f32) (x4 : Vec Ideal S64 .f32)
    (x5 : Vec Ideal S64x64 .f32) :
    val_main_v57 (F := Ideal) x0 x1 x3 x4 x5 = Cert.Spec.prod (val_main_v56 (F := Ideal) x0 x1 x3 x4) x5 := by
  funext i
  rw [val_main_v57_apply]
  exact Finset.sum_congr rfl fun k _ =>
    congrArg₂ (· * ·) (congrArg (val_main_v56 (F := Ideal) x0 x1 x3 x4) (lidx57 i k)) (congrArg x5 (ridx57 i k))

end Cert.ReferenceIdeal.RefSpec

end
-- ==== Proof.RefBiasRelu.lean ====
/-
  The reference's bias-and-rectify stage, read entrywise: each of its two occurrences adds to an array the bias
  vector laid out as a row and repeated down the rows, then takes the entrywise maximum with the zero constant.
  Both are the whole-array function `Cert.Spec.biasRelu` of the array before the stage and the bias as one row.
-/
import proofs.«114467_j33964601377212_1_alg».proof.Proof.Gen.ReferenceIdeal.Read
import proofs.«114467_j33964601377212_1_alg».proof.Proof.Spec
import Idealize.ShloMosaic.Lib.Pipeline.Value
import Idealize.ShloMosaic.Lib.ValueIdx
import Idealize.ShloMosaic.PureOps.Ideal
import Idealize.ShloMosaic.PureOps.Ideal.Laws

noncomputable section

namespace Cert.ReferenceIdeal.RefSpec

open Cert.ReferenceIdeal Cert.ReferenceIdeal.Read
open Idealize.ShloMosaic Idealize.ShloMosaic.ValueIdx

/-- One entry of the stage: the array's entry plus the bias entry of its column, then the maximum with zero.
    `k` is the bias index the two broadcasts read, which is the entry's column. -/
theorem read_eq (a : Vec Ideal S50000x64 .f32) (b : Vec Ideal S64 .f32) (i : S50000x64.Idx) (k : S64.Idx)
    (hk : k = ix1 (i 1)) :
    max (a i + b k) (Ideal.ofBits .f32 0x00000000#32) = Cert.Spec.biasRelu a (Cert.Spec.asRow b) i := by
  subst hk
  rfl

/-- The first occurrence: the aggregated array of the first layer, biased and rectified. -/
theorem v56_eq (x0 : Vec Ideal S50000x64 .f32) (x1 : IVec S2x800000 32) (x3 : Vec Ideal S64x64 .f32) (x4 : Vec Ideal S64 .f32) :
    val_main_v56 (F := Ideal) x0 x1 x3 x4 = Cert.Spec.biasRelu (val_main_v52 (F := Ideal) x0 x1 x3) (Cert.Spec.asRow x4) := by
  funext i
  rw [val_main_v56_apply, val_main_v55_apply, val_main_call0_v0_apply, val_main_call0_cst_apply, val_main_v54_apply, val_main_v53_apply]
  generalize val_main_v52 (F := Ideal) x0 x1 x3 = a
  exact read_eq a x4 i _ (funext fun d => match d with | ⟨0, _⟩ => rfl)

/-- The second occurrence: the aggregated array of the second layer, biased and rectified. -/
theorem v106_eq (x0 : Vec Ideal S50000x64 .f32) (x1 : IVec S2x800000 32) (x3 : Vec Ideal S64x64 .f32) (x4 : Vec Ideal S64 .f32) (x5 : Vec Ideal S64x64 .f32) (x6 : Vec Ideal S64 .f32) :
    val_main_v106 (F := Ideal) x0 x1 x3 x4 x5 x6 = Cert.Spec.biasRelu (val_main_v102 (F := Ideal) x0 x1 x3 x4 x5) (Cert.Spec.asRow x6) := by
  funext i
  rw [val_main_v106_apply, val_main_v105_apply, val_main_call1_v0_apply, val_main_call1_cst_apply, val_main_v104_apply, val_main_v103_apply]
  generalize val_main_v102 (F := Ideal) x0 x1 x3 x4 x5 = a
  exact read_eq a x6 i _ (funext fun d => match d with | ⟨0, _⟩ => rfl)

end Cert.ReferenceIdeal.RefSpec

end
-- ==== Proof.RefClassify.lean ====
/-
  The reference's classifier stage, read one operation at a time: the host's product of the pooled features with the
  weights, the bias (a length-10 vector laid out as a row) added to every row, and the outlined log-softmax — the
  reduction of each row by `max` from −∞ (and once more `max` with −∞, which changes nothing), the shift by it, the
  exponentials, their sum along each row from zero, its logarithm, and the last subtraction. The host's one-axis
  reductions read at a row are a fold, and a sum, over the row's ten columns, so the stage is `Cert.Spec.classify` of
  the pooled array, the weights and the bias row: `v123_eq`.
-/
import proofs.«114467_j33964601377212_1_alg».proof.Proof.Gen.ReferenceIdeal.Read
import proofs.«114467_j33964601377212_1_alg».proof.Proof.Spec
import proofs.«114467_j33964601377212_1_alg».proof.Proof.SpecClassify
import Idealize.ShloMosaic.Lib.Pipeline.Value
import Idealize.ShloMosaic.Lib.ValueIdx
import Idealize.ShloMosaic.PureOps.Ideal
import Idealize.ShloMosaic.PureOps.Ideal.Laws
import Idealize.ShloMosaic.PureOps.Reduce

set_option maxRecDepth 16384

noncomputable section

namespace Cert.ReferenceIdeal.RefSpec

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo

/-- The shape fact of a reduction of a 500 × 10 array along its rows, in the form that names the inserted index. -/
theorem reduces_rows : S500x10.Reduces [1] S500 := by decide

/-- The source index over row p with column k inserted is (p, k). -/
theorem lift_row (p : Fin 500) (k : Fin 10) : reduces_rows.lift (ix1 p) k = ix2 p k := by
  funext a; apply Fin.ext
  match a with
  | ⟨0, _⟩ => rfl
  | ⟨1, _⟩ => rfl

/-- The host's reduction of a 500 × 10 array along its rows by `max` from −∞, and `max` of −∞ with it, is at row p
    the row's greatest entry. -/
theorem rowmax_ref (l : FVec Ideal S500x10 .f32) (p : Fin 500) :
    FloatOps.maximumf (val_main_call2_v1 (F := Ideal) (ix1 p))
        (Host.reduce FloatOps.maximumf l (val_main_call2_cst (F := Ideal)) reducesTo_S500x10_S500_d1 h_S_ (ix1 p))
      = Cert.Spec.rowMax l p := by
  rw [val_main_call2_v1_apply, val_main_call2_cst_0_apply,
    Host.reduce_eq_fold_single FloatOps.maximumf l (val_main_call2_cst (F := Ideal)) reducesTo_S500x10_S500_d1 reduces_rows h_S_ (ix1 p)]
  show max (Ideal.ofBits .f32 0xFF800000#32)
      ((Finset.univ : Finset (Fin 10)).fold max (Ideal.ofBits .f32 0xFF800000#32) (l ∘ reduces_rows.lift (ix1 p))) = _
  rw [Cert.Spec.negInf_f32, max_eq_right bot_le]
  unfold Cert.Spec.rowMax
  refine congrArg (fun f => Finset.fold max ⊥ f Finset.univ) (funext fun k => ?_)
  exact congrArg l (lift_row p k)

section Stage
variable (x0 : Vec Ideal S50000x64 .f32) (x1 : IVec S2x800000 32) (x2 : IVec S50000 32) (x3 : Vec Ideal S64x64 .f32) (x4 : Vec Ideal S64 .f32) (x5 : Vec Ideal S64x64 .f32) (x6 : Vec Ideal S64 .f32) (x7 : Vec Ideal S64x10 .f32) (x8 : Vec Ideal S10 .f32)

/-- The biased product: the host's `dot_general` at (r, q) is the sum over k of the pooled array at (r, k) times the
    weights at (k, q); the bias, broadcast twice, is read at column q. -/
theorem v122_eq : val_main_v122 (F := Ideal) x0 x1 x2 x3 x4 x5 x6 x7 x8 = Cert.Spec.logits (val_main_v118 (F := Ideal) x0 x1 x2 x3 x4 x5 x6) x7 (Cert.Spec.asRow x8) := by
  funext i
  obtain ⟨p, q, rfl⟩ : ∃ (p : Fin 500) (q : Fin 10), i = ix2 p q := ⟨i 0, i 1, eq_ix2 i⟩
  rw [val_main_v122_apply, val_main_v119_apply, val_main_v121_apply, val_main_v120_apply]
  generalize val_main_v118 (F := Ideal) x0 x1 x2 x3 x4 x5 x6 = y
  show (∑ k : Fin 64, y (lidx_main_v119 (ix2 p q) k) * x7 (ridx_main_v119 (ix2 p q) k)) + x8 (idx_main_v120 (idx_main_v121 (ix2 p q)))
    = (∑ k : Fin 64, y (ix2 p k) * x7 (ix2 k q)) + x8 (ix1 q)
  have hl : ∀ k : Fin 64, lidx_main_v119 (ix2 p q) k = ix2 p k := fun k => funext fun a => by
    match a with | ⟨0, _⟩ => rfl | ⟨1, _⟩ => rfl
  have hr : ∀ k : Fin 64, ridx_main_v119 (ix2 p q) k = ix2 k q := fun k => funext fun a => by
    match a with | ⟨0, _⟩ => rfl | ⟨1, _⟩ => rfl
  have hb : idx_main_v120 (idx_main_v121 (ix2 p q)) = ix1 q := funext fun a => by
    match a with | ⟨0, _⟩ => rfl
  exact congrArg₂ (· + ·) (Finset.sum_congr rfl fun k _ => congrArg₂ (· * ·) (congrArg y (hl k)) (congrArg x7 (hr k))) (congrArg x8 hb)

/-- The row maxima: at row p the greatest entry of the biased product's row p. -/
theorem v2_apply (p : Fin 500) :
    val_main_call2_v2 (F := Ideal) x0 x1 x2 x3 x4 x5 x6 x7 x8 (ix1 p) = Cert.Spec.rowMax (Cert.Spec.logits (val_main_v118 (F := Ideal) x0 x1 x2 x3 x4 x5 x6) x7 (Cert.Spec.asRow x8)) p := by
  rw [val_main_call2_v2_apply]
  unfold val_main_call2_v0
  rw [v122_eq]
  exact rowmax_ref _ p

/-- The shifted array. -/
theorem v5_eq : val_main_call2_v5 (F := Ideal) x0 x1 x2 x3 x4 x5 x6 x7 x8 = Cert.Spec.shifted (Cert.Spec.logits (val_main_v118 (F := Ideal) x0 x1 x2 x3 x4 x5 x6) x7 (Cert.Spec.asRow x8)) := by
  funext i
  obtain ⟨p, q, rfl⟩ : ∃ (p : Fin 500) (q : Fin 10), i = ix2 p q := ⟨i 0, i 1, eq_ix2 i⟩
  rw [val_main_call2_v5_apply, val_main_call2_v4_apply, val_main_call2_v3_apply, v122_eq]
  have hi : idx_main_call2_v3 (idx_main_call2_v4 (ix2 p q)) = ix1 p := funext fun a => by
    match a with | ⟨0, _⟩ => rfl
  rw [hi, v2_apply]
  rfl

/-- The row sums of the exponentials of the shifted array. -/
theorem v7_apply (p : Fin 500) :
    val_main_call2_v7 (F := Ideal) x0 x1 x2 x3 x4 x5 x6 x7 x8 (ix1 p) = Cert.Spec.rowExpSum (Cert.Spec.logits (val_main_v118 (F := Ideal) x0 x1 x2 x3 x4 x5 x6) x7 (Cert.Spec.asRow x8)) p := by
  rw [val_main_call2_v7_apply, val_main_call2_cst_1_apply, Ideal.ofBits_def, Ideal.ofBits_zero_f32, zero_add]
  unfold Cert.Spec.rowExpSum
  refine Finset.sum_congr rfl fun k _ => ?_
  rw [val_main_call2_v6_apply, v5_eq]
  have hk : idx_main_call2_v7 (ix1 p) k = ix2 p k := funext fun a => by
    match a with | ⟨0, _⟩ => rfl | ⟨1, _⟩ => rfl
  rw [hk]
  exact Ideal.hostUnary_exp_def _

/-- The reference's classifier stage is the classifier stage of the pooled array, the weights and the bias row. -/
theorem v123_eq : val_main_v123 (F := Ideal) x0 x1 x2 x3 x4 x5 x6 x7 x8
    = Cert.Spec.classify (val_main_v118 (F := Ideal) x0 x1 x2 x3 x4 x5 x6) x7 (Cert.Spec.asRow x8) := by
  unfold Cert.Spec.classify
  funext i
  obtain ⟨p, q, rfl⟩ : ∃ (p : Fin 500) (q : Fin 10), i = ix2 p q := ⟨i 0, i 1, eq_ix2 i⟩
  rw [val_main_v123_apply, val_main_call2_v10_apply, val_main_call2_v9_apply, val_main_call2_v8_apply, v5_eq]
  have hi : idx_main_call2_v8 (idx_main_call2_v10 (ix2 p q)) = ix1 p := funext fun a => by
    match a with | ⟨0, _⟩ => rfl
  rw [hi, v7_apply]
  generalize Cert.Spec.logits (val_main_v118 (F := Ideal) x0 x1 x2 x3 x4 x5 x6) x7 (Cert.Spec.asRow x8) = l
  rw [Ideal.subf_def, Ideal.hostUnary_log_def]
  rfl

end Stage

end Cert.ReferenceIdeal.RefSpec

end
-- ==== Proof.Chain.lean ====
/-
  The kernel's run, boundary by boundary, against the reference's stages. Each region's output array is a whole-array
  function of the arrays the region finds (the product, the biased rectification, the classifier), each host stretch
  applies the reference's own operations, and the reference's stages are the same whole-array functions of the same
  operands. So, walking @main from the launch: the first transform's output is the reference's first product, the
  first aggregate the reference's, and so on down to the result, which is the reference's log-softmax of the
  classifier's logits of the pooled activations — provided every graph index is non-negative, which is where the
  kernel's wrapped scatter and the reference's plain one agree.
-/
import proofs.«114467_j33964601377212_1_alg».proof.Proof.Stretch4
import proofs.«114467_j33964601377212_1_alg».proof.Proof.RegionMatmul0
import proofs.«114467_j33964601377212_1_alg».proof.Proof.RegionMatmul2
import proofs.«114467_j33964601377212_1_alg».proof.Proof.RegionBiasRelu1
import proofs.«114467_j33964601377212_1_alg».proof.Proof.RegionBiasRelu3
import proofs.«114467_j33964601377212_1_alg».proof.Proof.RegionClassifier4
import proofs.«114467_j33964601377212_1_alg».proof.Proof.RefProd
import proofs.«114467_j33964601377212_1_alg».proof.Proof.RefBiasRelu
import proofs.«114467_j33964601377212_1_alg».proof.Proof.RefClassify

set_option maxRecDepth 16384

noncomputable section

namespace Cert.KernelIdeal.Levels

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- After the first transform: the node features times the first weight matrix. -/
theorem W2_v34 (c : Dev nD) : W2 m ρ c (Proc.devRef .tc main_v34) = Cert.ReferenceIdeal.Read.val_main_v7 (F := Ideal) (a0 m c) (a3 m c) :=
  ((W2_arr m ρ c 2).trans (Cert.KernelIdeal.Region0.arr_prod (V1 m ρ) c)).trans
    ((congrArg₂ Cert.Spec.prod (W1_arg0 m ρ c) (W1_arg3 m ρ c)).trans
      (Cert.ReferenceIdeal.RefSpec.v7_eq (a0 m c) (a3 m c)).symm)

/-- After the first bias region: the first layer's activations. -/
theorem W4_v54 (c : Dev nD) : W4 m ρ c (Proc.devRef .tc main_v54) = Cert.ReferenceIdeal.Read.val_main_v56 (F := Ideal) (a0 m c) (a1 m c) (a3 m c) (a4 m c) :=
  ((W4_arr m ρ c 2).trans (Cert.KernelIdeal.Region1.arr_biasRelu (V3 m ρ) c)).trans
    ((congrArg₂ Cert.Spec.biasRelu (W3_v52 m ρ c (W2_v34 m ρ c)) (W3_v53 m ρ c)).trans
      (Cert.ReferenceIdeal.RefSpec.v56_eq (a0 m c) (a1 m c) (a3 m c) (a4 m c)).symm)

/-- After the second transform: the first layer's activations times the second weight matrix. -/
theorem W5_v55 (c : Dev nD) : W5 m ρ c (Proc.devRef .tc main_v55) = Cert.ReferenceIdeal.Read.val_main_v57 (F := Ideal) (a0 m c) (a1 m c) (a3 m c) (a4 m c) (a5 m c) :=
  ((W5_arr m ρ c 2).trans (Cert.KernelIdeal.Region2.arr_prod (V4 m ρ) c)).trans
    ((congrArg₂ Cert.Spec.prod (W4_v54 m ρ c) (W4_arg5 m ρ c)).trans
      (Cert.ReferenceIdeal.RefSpec.v57_eq (a0 m c) (a1 m c) (a3 m c) (a4 m c) (a5 m c)).symm)

/-- After the second bias region: the second layer's activations. -/
theorem W7_v75 (c : Dev nD) : W7 m ρ c (Proc.devRef .tc main_v75) = Cert.ReferenceIdeal.Read.val_main_v106 (F := Ideal) (a0 m c) (a1 m c) (a3 m c) (a4 m c) (a5 m c) (a6 m c) :=
  ((W7_arr m ρ c 2).trans (Cert.KernelIdeal.Region3.arr_biasRelu (V6 m ρ) c)).trans
    ((congrArg₂ Cert.Spec.biasRelu (W6_v73 m ρ c (W5_v55 m ρ c)) (W6_v74 m ρ c)).trans
      (Cert.ReferenceIdeal.RefSpec.v106_eq (a0 m c) (a1 m c) (a3 m c) (a4 m c) (a5 m c) (a6 m c)).symm)

/-- The result: the reference's, when every graph index is non-negative. -/
theorem W9_v99 (c : Dev nD) (hnn : ∀ i, IntOp.cmpi .sge ((a2 m c : IVec S50000 32) i) 0#32 = 1#1) :
    W9 m ρ c (Proc.devRef .tc main_v99) = Cert.ReferenceIdeal.Read.val_main_v123 (F := Ideal) (a0 m c) (a1 m c) (a2 m c) (a3 m c) (a4 m c) (a5 m c) (a6 m c) (a7 m c) (a8 m c) :=
  ((W9_arr m ρ c 3).trans (Cert.KernelIdeal.Region4.arr_classify (V8 m ρ) c)).trans
    ((congr (congrArg₂ Cert.Spec.classify (W8_v97 m ρ c hnn (W7_v75 m ρ c)) (W8_arg7 m ρ c)) (W8_v98 m ρ c)).trans
      (Cert.ReferenceIdeal.RefSpec.v123_eq (a0 m c) (a1 m c) (a2 m c) (a3 m c) (a4 m c) (a5 m c) (a6 m c) (a7 m c) (a8 m c)).symm)

end Cert.KernelIdeal.Levels

end
-- ==== Proof.lean ====
/-
  A two-layer graph convolution with mean pooling and a log-softmax classifier, as a Pallas program of five kernel
  regions (two feature transforms x · W by row blocks, two passes max (agg + b, 0), one classifier) among host
  stretches that gather, weight and scatter-add along the edges, against the plain jnp reference.

  On the extended reals the two programs are the same function of the inputs wherever every graph index is
  non-negative (the precondition's last conjunct):
  · a change of float format is the identity and a product into a zero accumulator is the host's contraction, so each
    transform region's ten row blocks are the reference's whole product (entry (r, q) needs row r only);
  · the bias regions and the classifier are the reference's entrywise and row-wise operations, block by block;
  · the host stretches are the reference's own operations on the same index vectors and weights (the reference
    computes the degree weights twice, the kernel once: one value);
  · the pooling scatter is where the texts differ — the kernel wraps a negative graph index by adding the number of
    graphs, the reference scatters the index as it is and an index outside contributes nothing — and for non-negative
    indices the wrap does nothing.
  The frames of the two kernel programs are the generated ones; the reference's is its generated run with the
  result dropped; the idealization rewrote nothing, so there is nothing to preserve.
-/
import proofs.«114467_j33964601377212_1_alg».proof.Defs
import proofs.«114467_j33964601377212_1_alg».proof.Proof.Gen.Kernel
import proofs.«114467_j33964601377212_1_alg».proof.Proof.Gen.Kernel.Skeleton
import proofs.«114467_j33964601377212_1_alg».proof.Proof.Gen.Kernel.Launch
import proofs.«114467_j33964601377212_1_alg».proof.Proof.Gen.Kernel.Points
import proofs.«114467_j33964601377212_1_alg».proof.Proof.Gen.Kernel.Frame
import proofs.«114467_j33964601377212_1_alg».proof.Proof.Gen.KernelIdeal
import proofs.«114467_j33964601377212_1_alg».proof.Proof.Gen.KernelIdeal.Skeleton
import proofs.«114467_j33964601377212_1_alg».proof.Proof.Gen.KernelIdeal.Launch
import proofs.«114467_j33964601377212_1_alg».proof.Proof.Gen.KernelIdeal.Points
import proofs.«114467_j33964601377212_1_alg».proof.Proof.Gen.KernelIdeal.Frame
import proofs.«114467_j33964601377212_1_alg».proof.Proof.Gen.ReferenceIdeal
import proofs.«114467_j33964601377212_1_alg».proof.Proof.Gen.ReferenceIdeal.Run
import proofs.«114467_j33964601377212_1_alg».proof.Proof.Gen.ReferenceIdeal.Read
import proofs.«114467_j33964601377212_1_alg».proof.Proof.Gen.Pre_finite_inputs
import proofs.«114467_j33964601377212_1_alg».proof.Proof.KernelRun
import proofs.«114467_j33964601377212_1_alg».proof.Proof.Chain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the inputs, with every graph index non-negative, both programs end with the same
    500 × 10 array: the kernel's run ends with the result buffer at the last boundary's contents, which the walk
    through @main identifies with the reference's last stage; the reference's run ends at that stage of its own
    inputs, which are the kernel's. -/
theorem algebraic : Cert.algebraic_KernelIdeal_ReferenceIdeal := by
  intro m ρ m' ρ' hpre hagree
  refine ⟨fun c => Cert.KernelIdeal.Gen.W9 m ρ c (Proc.devRef .tc Cert.KernelIdeal.main_v99),
    Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v123_eq, h0, h1, h2, h3, h4, h5, h6, h7, h8]
  exact (Cert.KernelIdeal.Levels.W9_v99 m ρ c
    (Cert.Pre_finite_inputs.Decode.batch_nonneg _ _ _ _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
